-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x64 : Shape := ⟨3, ![8, 10000, 64]⟩
abbrev S8x10000x8 : Shape := ⟨3, ![8, 10000, 8]⟩
abbrev S_ : Shape := ⟨0, ![]⟩

class Facts : Prop where
  bcast_S_S8x10000x64 : S_.BroadcastsInDim S8x10000x64 (![] : Fin 0 → Fin S8x10000x64.rank)
  reducesTo_S8x10000x64_S_d0_1_2 : S8x10000x64.ReducesTo [0, 1, 2] S_
  h_S_ : 0 < S_.numel

variable [Facts]

def fn {F : FTy → Type} [FloatOps F] (main_arg0 : FVec F S8x10000x64 .f32) (main_arg1 : IVec S8x10000x8 32) : IVec S_ 1 :=
  let main_v0 : FVec F S8x10000x64 .f32 := Host.absf main_arg0
  let main_cst : FVec F S_ .f32 := constant S_ .f32 0x7F800000#32
  let main_v1 : FVec F S8x10000x64 .f32 := broadcastInDim S8x10000x64 ![] bcast_S_S8x10000x64 main_cst
  let main_v2 : IVec S8x10000x64 1 := cmpf .olt main_v0 main_v1
  let main_c : IVec S_ 1 := constantI S_ 1 1#1
  let main_v3 : IVec S_ 1 := (fun x v => Host.reduce IntOp.andi x v reducesTo_S8x10000x64_S_d0_1_2 h_S_) main_v2 main_c
  main_v3
-- ==== Kernel.lean ====
abbrev S8x10000x64 : Shape := ⟨3, ![8, 10000, 64]⟩
abbrev S8x10000x8 : Shape := ⟨3, ![8, 10000, 8]⟩
abbrev S_ : Shape := ⟨0, ![]⟩
abbrev S8x10000x128 : Shape := ⟨3, ![8, 10000, 128]⟩
abbrev S8x10000x576 : Shape := ⟨3, ![8, 10000, 576]⟩
abbrev S1x1000x64 : Shape := ⟨3, ![1, 1000, 64]⟩
abbrev S1x10000x128 : Shape := ⟨3, ![1, 10000, 128]⟩
abbrev S1x1000x8 : Shape := ⟨3, ![1, 1000, 8]⟩
abbrev S1x1000x576 : Shape := ⟨3, ![1, 1000, 576]⟩
abbrev S1000x8 : Shape := ⟨2, ![1000, 8]⟩
abbrev S1000x64 : Shape := ⟨2, ![1000, 64]⟩
abbrev S1000x2000 : Shape := ⟨2, ![1000, 2000]⟩
abbrev S1000x512 : Shape := ⟨2, ![1000, 512]⟩
abbrev S1x2000x128 : Shape := ⟨3, ![1, 2000, 128]⟩
abbrev S2000x128 : Shape := ⟨2, ![2000, 128]⟩
abbrev S1000x1 : Shape := ⟨2, ![1000, 1]⟩
abbrev S1000x128 : Shape := ⟨2, ![1000, 128]⟩
abbrev S1000x576 : Shape := ⟨2, ![1000, 576]⟩
abbrev S8x10000x9x64 : Shape := ⟨4, ![8, 10000, 9, 64]⟩

abbrev nBuf : Space → Nat
  | .hbm => 37
  | .vmem => 8
  | .smem => 0
  | _ => 0

abbrev bufTy : (tb : Table) → Fin (tcTables nBuf tb) → BufTy
  | .hbm, ⟨0, _⟩ => ⟨S8x10000x64, .f32⟩
  | .hbm, ⟨1, _⟩ => ⟨S8x10000x8, .i32⟩
  | .hbm, ⟨2, _⟩ => ⟨S_, .i32⟩
  | .hbm, ⟨3, _⟩ => ⟨S8x10000x8, .i32⟩
  | .hbm, ⟨4, _⟩ => ⟨S8x10000x8, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S8x10000x8, .i32⟩
  | .hbm, ⟨12, _⟩ => ⟨S8x10000x8, .i32⟩
  | .hbm, ⟨13, _⟩ => ⟨S_, .i32⟩
  | .hbm, ⟨14, _⟩ => ⟨S8x10000x8, .i32⟩
  | .hbm, ⟨15, _⟩ => ⟨S8x10000x8, .i1⟩
  | .hbm, ⟨16, _⟩ => ⟨S_, .i32⟩
  | .hbm, ⟨17, _⟩ => ⟨S8x10000x8, .i32⟩
  | .hbm, ⟨18, _⟩ => ⟨S8x10000x8, .i1⟩
  | .hbm, ⟨19, _⟩ => ⟨S_, .i32⟩
  | .hbm, ⟨20, _⟩ => ⟨S_, .i1⟩
  | .hbm, ⟨21, _⟩ => ⟨S8x10000x8, .i1⟩
  | .hbm, ⟨22, _⟩ => ⟨S8x10000x8, .i1⟩
  | .hbm, ⟨23, _⟩ => ⟨S8x10000x8, .i1⟩
  | .hbm, ⟨24, _⟩ => ⟨S8x10000x8, .i32⟩
  | .hbm, ⟨25, _⟩ => ⟨S8x10000x8, .i32⟩
  | .hbm, ⟨26, _⟩ => ⟨S8x10000x8, .i32⟩
  | .hbm, ⟨27, _⟩ => ⟨S_, .i32⟩
  | .hbm, ⟨28, _⟩ => ⟨S8x10000x8, .i32⟩
  | .hbm, ⟨29, _⟩ => ⟨S8x10000x8, .i32⟩
  | .hbm, ⟨30, _⟩ => ⟨S8x10000x64, .bf16⟩
  | .hbm, ⟨31, _⟩ => ⟨S8x10000x64, .f32⟩
  | .hbm, ⟨32, _⟩ => ⟨S8x10000x64, .f32⟩
  | .hbm, ⟨33, _⟩ => ⟨S8x10000x64, .bf16⟩
  | .hbm, ⟨34, _⟩ => ⟨S8x10000x128, .bf16⟩
  | .hbm, ⟨35, _⟩ => ⟨S8x10000x576, .f32⟩
  | .hbm, ⟨36, _⟩ => ⟨S8x10000x9x64, .f32⟩
  | .local _ .vmem, ⟨0, _⟩ => ⟨S1x1000x64, .f32⟩
  | .local _ .vmem, ⟨1, _⟩ => ⟨S1x1000x64, .f32⟩
  | .local _ .vmem, ⟨2, _⟩ => ⟨S1x10000x128, .bf16⟩
  | .local _ .vmem, ⟨3, _⟩ => ⟨S1x10000x128, .bf16⟩
  | .local _ .vmem, ⟨4, _⟩ => ⟨S1x1000x8, .i32⟩
  | .local _ .vmem, ⟨5, _⟩ => ⟨S1x1000x8, .i32⟩
  | .local _ .vmem, ⟨6, _⟩ => ⟨S1x1000x576, .f32⟩
  | .local _ .vmem, ⟨7, _⟩ => ⟨S1x1000x576, .f32⟩
  | _, _ => ⟨S8x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_c_1 : Ref sig .tc := ⟨.hbm, 27, rfl⟩
abbrev main_call1_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 10], ![false, false]⟩

@[reducible] def k0_t1_loop : Scf.Loop 32 :=
  let c0_i32 : BitVec 32 := 0#32
  let c5_i32 : BitVec 32 := 5#32
  let v6 : BitVec 32 := Scalar.addi c0_i32 c5_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c2000_i32 : BitVec 32 := 2000#32
  let v12 : BitVec 32 := Scalar.muli arg6 c2000_i32
  v12
def k0_off1 (k0_t1 : Fin k0_t1_loop.trips) : Fin 3 → Nat :=
  let c0_9 : Index := 0#32
  let c0_i32 : BitVec 32 := 0#32
  let c1_i32 : BitVec 32 := 1#32
  let arg6 : BitVec 32 := Scf.iv c0_i32 c1_i32 k0_t1
  let c2000_i32 : BitVec 32 := 2000#32
  let v12 : BitVec 32 := Scalar.muli arg6 c2000_i32
  let v13 : BitVec 32 := v12
  let v14 : Index := Scalar.indexCast v13
  let c0_10 : Index := 0#32
  ![0, v14.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1000x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1000x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8x10000x8 : S_.BroadcastsInDim S8x10000x8 (![] : Fin 0 → Fin S8x10000x8.rank)
  bitsLt_bf16_f32 : FTy.bits .bf16 < FTy.bits .f32
  concatenates_S8x10000x64_S8x10000x64_S8x10000x128_d2 : Shape.Concatenates [S8x10000x64, S8x10000x64] S8x10000x128 2
  inb_S1x1000x8_S1x1000x8_0_0_0 : ∀ a, (![0, 0, 0] : Fin 3 → Nat) a + S1x1000x8.size a ≤ S1x1000x8.size a
  h_S1x1000x8 : 0 < S1x1000x8.numel
  shapeCasts_S1x1000x8_S1000x8 : S1x1000x8.ShapeCasts S1000x8
  inb_S1x1000x64_S1x1000x64_0_0_0 : ∀ a, (![0, 0, 0] : Fin 3 → Nat) a + S1x1000x64.size a ≤ S1x1000x64.size a
  h_S1x1000x64 : 0 < S1x1000x64.numel
  shapeCasts_S1x1000x64_S1000x64 : S1x1000x64.ShapeCasts S1000x64
  iota_S1000x2000_d1_w32 : S1000x2000.Iotas .tc 32 [1]
  h_S1x2000x128 : 0 < S1x2000x128.numel
  shapeCasts_S1x2000x128_S2000x128 : S1x2000x128.ShapeCasts S2000x128
  slices_S1000x8_o0_0_S1000x1 : S1000x8.Slices ![0, 0] S1000x1
  broadcasts_S1000x1_S1000x2000 : S1000x1.Broadcasts S1000x2000
  natLt_1_32 : 1 < 32
  slices_S1000x128_o0_0_S1000x64 : S1000x128.Slices ![0, 0] S1000x64
  slices_S1000x128_o0_64_S1000x64 : S1000x128.Slices ![0, 64] S1000x64
  slices_S1000x8_o0_1_S1000x1 : S1000x8.Slices ![0, 1] S1000x1
  slices_S1000x8_o0_2_S1000x1 : S1000x8.Slices ![0, 2] S1000x1
  slices_S1000x8_o0_3_S1000x1 : S1000x8.Slices ![0, 3] S1000x1
  slices_S1000x8_o0_4_S1000x1 : S1000x8.Slices ![0, 4] S1000x1
  slices_S1000x8_o0_5_S1000x1 : S1000x8.Slices ![0, 5] S1000x1
  slices_S1000x8_o0_6_S1000x1 : S1000x8.Slices ![0, 6] S1000x1
  slices_S1000x8_o0_7_S1000x1 : S1000x8.Slices ![0, 7] S1000x1
  concatenates_S1000x64_S1000x64_S1000x64_S1000x64_S1000x64_S1000x64_S1000x64_S1000x64_S1000x512_d1 : Shape.Concatenates [S1000x64, S1000x64, S1000x64, S1000x64, S1000x64, S1000x64, S1000x64, S1000x64] S1000x512 1
  concatenates_S1000x512_S1000x64_S1000x576_d1 : Shape.Concatenates [S1000x512, S1000x64] S1000x576 1
  inb_S1x1000x576_S1x1000x576_0_0_0 : ∀ a, (![0, 0, 0] : Fin 3 → Nat) a + S1x1000x576.size a ≤ S1x1000x576.size a
  h_S1x1000x576 : 0 < S1x1000x576.numel
  shapeCasts_S1x1000x576_S1000x576 : S1x1000x576.ShapeCasts S1000x576
  shapeCasts_S1000x576_S1x1000x576 : S1000x576.ShapeCasts S1x1000x576
  shapeCasts_S8x10000x576_S8x10000x9x64 : S8x10000x576.ShapeCasts S8x10000x9x64
  dot_S1000x2000_S2000x128_S1000x128_1_0_0_1_n_n_wf : DotDims.WF S1000x2000 S2000x128 S1000x128 [1] [0] [0] [1] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S1x2000x128.size a ≤ S1x10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x64.size a ≤ S8x10000x64.size a
  hwx0_0 : ∀ i : grid0.Coords, EltTy.bits .f32 = 32 ∨ (Rect.block (s := S8x10000x64) S1x1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10000x128.size a ≤ S8x10000x128.size a
  hwx0_1 : ∀ i : grid0.Coords, EltTy.bits .bf16 = 32 ∨ (Rect.block (s := S8x10000x128) S1x10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x8.size a ≤ S8x10000x8.size a
  hwx0_2 : ∀ i : grid0.Coords, EltTy.bits .i32 = 32 ∨ (Rect.block (s := S8x10000x8) S1x1000x8.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x576.size a ≤ S8x10000x576.size a
  hwx0_3 : ∀ i : grid0.Coords, EltTy.bits .f32 = 32 ∨ (Rect.block (s := S8x10000x576) S1x1000x576.size (cc0_transform_3 i) (hinb0_3 i)).WholeWords (EltTy.packing .f32)

variable [Facts₀]

def dot_S1000x2000_S2000x128_S1000x128_1_0_0_1_n_n : DotDims S1000x2000 S2000x128 S1000x128 where
  lhsContracting := [1]
  rhsContracting := [0]
  lhsNonContracting := [0]
  rhsNonContracting := [1]
  lhsBatch := []
  rhsBatch := []
  wf := dot_S1000x2000_S2000x128_S1000x128_1_0_0_1_n_n_wf

abbrev win0_0 : Pipeline.Window sig grid0 :=
  Pipeline.Window.ofSpec (Memref.whole main_arg0) S1x1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1000x576.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x10000x64 : Shape := ⟨3, ![8, 10000, 64]⟩
abbrev S8x10000x8 : Shape := ⟨3, ![8, 10000, 8]⟩
abbrev S80000x64 : Shape := ⟨2, ![80000, 64]⟩
abbrev S80000x8 : Shape := ⟨2, ![80000, 8]⟩
abbrev S80000 : Shape := ⟨1, ![80000]⟩
abbrev S_ : Shape := ⟨0, ![]⟩
abbrev S80000x1 : Shape := ⟨2, ![80000, 1]⟩
abbrev S1x64 : Shape := ⟨2, ![1, 64]⟩
abbrev S80001x64 : Shape := ⟨2, ![80001, 64]⟩
abbrev S80000x8x1 : Shape := ⟨3, ![80000, 8, 1]⟩
abbrev S80000x8x64 : Shape := ⟨3, ![80000, 8, 64]⟩
abbrev S8x10000x8x64 : Shape := ⟨4, ![8, 10000, 8, 64]⟩
abbrev S8x10000x1x64 : Shape := ⟨4, ![8, 10000, 1, 64]⟩
abbrev S8x10000x9x64 : Shape := ⟨4, ![8, 10000, 9, 64]⟩

abbrev nBuf : Space → Nat
  | .hbm => 72
  | .vmem => 0
  | .smem => 0
  | _ => 0

abbrev bufTy : (tb : Table) → Fin (tcTables nBuf tb) → BufTy
  | .hbm, ⟨0, _⟩ => ⟨S8x10000x64, .f32⟩
  | .hbm, ⟨1, _⟩ => ⟨S8x10000x8, .i32⟩
  | .hbm, ⟨2, _⟩ => ⟨S80000x64, .f32⟩
  | .hbm, ⟨3, _⟩ => ⟨S80000x8, .i32⟩
  | .hbm, ⟨4, _⟩ => ⟨S80000, .i32⟩
  | .hbm, ⟨5, _⟩ => ⟨S_, .i32⟩
  | .hbm, ⟨6, _⟩ => ⟨S_, .i32⟩
  | .hbm, ⟨7, _⟩ => ⟨S80000, .i32⟩
  | .hbm, ⟨8, _⟩ => ⟨S80000, .i32⟩
  | .hbm, ⟨9, _⟩ => ⟨S80000, .i32⟩
  | .hbm, ⟨10, _⟩ => ⟨S_, .i32⟩
  | .hbm, ⟨11, _⟩ => ⟨S80000, .i32⟩
  | .hbm, ⟨12, _⟩ => ⟨S80000, .i1⟩
  | .hbm, ⟨13, _⟩ => ⟨S80000, .i32⟩
  | .hbm, ⟨14, _⟩ => ⟨S80000, .i32⟩
  | .hbm, ⟨15, _⟩ => ⟨S_, .i32⟩
  | .hbm, ⟨16, _⟩ => ⟨S80000, .i32⟩
  | .hbm, ⟨17, _⟩ => ⟨S80000, .i1⟩
  | .hbm, ⟨18, _⟩ => ⟨S80000, .i1⟩
  | .hbm, ⟨19, _⟩ => ⟨S_, .i32⟩
  | .hbm, ⟨20, _⟩ => ⟨S80000, .i32⟩
  | .hbm, ⟨21, _⟩ => ⟨S80000, .i32⟩
  | .hbm, ⟨22, _⟩ => ⟨S80000, .i32⟩
  | .hbm, ⟨23, _⟩ => ⟨S_, .i32⟩
  | .hbm, ⟨24, _⟩ => ⟨S80000, .i32⟩
  | .hbm, ⟨25, _⟩ => ⟨S80000, .i32⟩
  | .hbm, ⟨26, _⟩ => ⟨S_, .i32⟩
  | .hbm, ⟨27, _⟩ => ⟨S80000x8, .i32⟩
  | .hbm, ⟨28, _⟩ => ⟨S80000x8, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S80000x8, .i32⟩
  | .hbm, ⟨36, _⟩ => ⟨S80000x8, .i32⟩
  | .hbm, ⟨37, _⟩ => ⟨S_, .i32⟩
  | .hbm, ⟨38, _⟩ => ⟨S80000x8, .i32⟩
  | .hbm, ⟨39, _⟩ => ⟨S80000x8, .i1⟩
  | .hbm, ⟨40, _⟩ => ⟨S_, .i32⟩
  | .hbm, ⟨41, _⟩ => ⟨S80000x8, .i32⟩
  | .hbm, ⟨42, _⟩ => ⟨S80000x8, .i1⟩
  | .hbm, ⟨43, _⟩ => ⟨S_, .i32⟩
  | .hbm, ⟨44, _⟩ => ⟨S_, .i1⟩
  | .hbm, ⟨45, _⟩ => ⟨S80000x8, .i1⟩
  | .hbm, ⟨46, _⟩ => ⟨S80000x8, .i1⟩
  | .hbm, ⟨47, _⟩ => ⟨S80000x8, .i1⟩
  | .hbm, ⟨48, _⟩ => ⟨S80000x8, .i32⟩
  | .hbm, ⟨49, _⟩ => ⟨S80000x8, .i32⟩
  | .hbm, ⟨50, _⟩ => ⟨S80000x8, .i32⟩
  | .hbm, ⟨51, _⟩ => ⟨S80000x1, .i32⟩
  | .hbm, ⟨52, _⟩ => ⟨S80000x8, .i32⟩
  | .hbm, ⟨53, _⟩ => ⟨S80000x8, .i32⟩
  | .hbm, ⟨54, _⟩ => ⟨S_, .i32⟩
  | .hbm, ⟨55, _⟩ => ⟨S80000x8, .i32⟩
  | .hbm, ⟨56, _⟩ => ⟨S80000x8, .i32⟩
  | .hbm, ⟨57, _⟩ => ⟨S_, .f32⟩
  | .hbm, ⟨58, _⟩ => ⟨S1x64, .f32⟩
  | .hbm, ⟨59, _⟩ => ⟨S80001x64, .f32⟩
  | .hbm, ⟨60, _⟩ => ⟨S_, .i32⟩
  | .hbm, ⟨61, _⟩ => ⟨S80000x8, .i32⟩
  | .hbm, ⟨62, _⟩ => ⟨S80000x8, .i1⟩
  | .hbm, ⟨63, _⟩ => ⟨S_, .i32⟩
  | .hbm, ⟨64, _⟩ => ⟨S80000x8, .i32⟩
  | .hbm, ⟨65, _⟩ => ⟨S80000x8, .i32⟩
  | .hbm, ⟨66, _⟩ => ⟨S80000x8, .i32⟩
  | .hbm, ⟨67, _⟩ => ⟨S80000x8x1, .i32⟩
  | .hbm, ⟨68, _⟩ => ⟨S80000x8x64, .f32⟩
  | .hbm, ⟨69, _⟩ => ⟨S8x10000x8x64, .f32⟩
  | .hbm, ⟨70, _⟩ => ⟨S8x10000x1x64, .f32⟩
  | .hbm, ⟨71, _⟩ => ⟨S8x10000x9x64, .f32⟩
  | _, _ => ⟨S8x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_c_3 : Ref sig .tc := ⟨.hbm, 54, rfl⟩
abbrev main_call2_v0 : Ref sig .tc := ⟨.hbm, 55, rfl⟩
abbrev main_v12 : Ref sig .tc := ⟨.hbm, 56, rfl⟩
abbrev main_cst : Ref sig .tc := ⟨.hbm, 57, rfl⟩
abbrev main_v13 : Ref sig .tc := ⟨.hbm, 58, rfl⟩
abbrev main_v14 : Ref sig .tc := ⟨.hbm, 59, rfl⟩
abbrev main_c_4 : Ref sig .tc := ⟨.hbm, 60, rfl⟩
abbrev main_v15 : Ref sig .tc := ⟨.hbm, 61, rfl⟩
abbrev main_v16 : Ref sig .tc := ⟨.hbm, 62, rfl⟩
abbrev main_c_5 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩

abbrev nD : Nat := 1
abbrev τ : Topo := Topo.v7x

variable {F : FTy → Type} [FloatOps F]

class Facts₀ : Prop where
  shapeCasts_S8x10000x64_S80000x64 : S8x10000x64.ShapeCasts S80000x64
  shapeCasts_S8x10000x8_S80000x8 : S8x10000x8.ShapeCasts S80000x8
  bcast_S_S80000 : S_.BroadcastsInDim S80000 (![] : Fin 0 → Fin S80000.rank)
  bcast_S_S80000x8 : S_.BroadcastsInDim S80000x8 (![] : Fin 0 → Fin S80000x8.rank)
  bcast_S80000_S80000x1_0 : S80000.BroadcastsInDim S80000x1 (![0] : Fin 1 → Fin S80000x1.rank)
  bcast_S80000x1_S80000x8_0_1 : S80000x1.BroadcastsInDim S80000x8 (![0, 1] : Fin 2 → Fin S80000x8.rank)
  bcast_S_S1x64 : S_.BroadcastsInDim S1x64 (![] : Fin 0 → Fin S1x64.rank)
  concatenates_S80000x64_S1x64_S80001x64_d0 : Shape.Concatenates [S80000x64, S1x64] S80001x64 0
  bcast_S80000x8_S80000x8x1_0_1 : S80000x8.BroadcastsInDim S80000x8x1 (![0, 1] : Fin 2 → Fin S80000x8x1.rank)
  shapeCasts_S80000x8x64_S8x10000x8x64 : S80000x8x64.ShapeCasts S8x10000x8x64
  bcast_S8x10000x64_S8x10000x1x64_0_1_3 : S8x10000x64.BroadcastsInDim S8x10000x1x64 (![0, 1, 3] : Fin 3 → Fin S8x10000x1x64.rank)
  concatenates_S8x10000x8x64_S8x10000x1x64_S8x10000x9x64_d2 : Shape.Concatenates [S8x10000x8x64, S8x10000x1x64] S8x10000x9x64 2
  gather_S80001x64_S80000x8x1_S80000x8x64_2_0_n_n_0_2_164_wf : GatherDims.WF S80001x64 S80000x8x1 S80000x8x64 [2] [0] [] [0] [] 2 ![1, 64]

variable [Facts₀]

def gather_S80001x64_S80000x8x1_S80000x8x64_2_0_n_n_0_2_164 : GatherDims S80001x64 S80000x8x1 S80000x8x64 where
  offsetDims := [2]
  collapsedSliceDims := [0]
  operandBatchingDims := []
  startIndicesBatchingDims := []
  startIndexMap := [0]
  indexVectorDim := 2
  sliceSizes := ![1, 64]
  wf := gather_S80001x64_S80000x8x1_S80000x8x64_2_0_n_n_0_2_164_wf

class Facts : Prop extends Facts₀ where

variable [Facts]
-- ==== Proof.LibTiles.lean ====
/-
  Concatenations whose pieces are an explicit list of vectors of ONE shape, read at an index: the piece is named by the
  axis coordinate divided by the pieces' common extent, the position inside it by the remainder. And the case where the
  pieces are tiles of equal width cut from one matrix at a list of column offsets: the concatenation read at row `r`,
  column `k·T + b` is the matrix at row `r`, column `offs[k] + b`.
-/
import Idealize.ShloMosaic.Lib.Pipeline.Value

namespace Idealize.ShloMosaic

/-- A list mapped through `g` is the list, by position, of `g` of its entries. -/
theorem map_eq_ofFn_get {β γ : Type _} (g : β → γ) (vs : List β) :
    vs.map g = List.ofFn fun n : Fin vs.length => g (vs.get n) := by
  apply List.ext_get
  · simp
  · intro k h₁ h₂
    simp

/-- A concatenation of an explicit list `vs` of vectors OF ONE SHAPE `s₁`, whose extent along the axis is `K`, read at an
    index `j`: entry `(j a) / K` of the list, at the index `i` that has `(j a) % K` on the axis and `j`'s coordinates elsewhere. -/
theorem concatenate_map_apply {α : Type} {t s₁ : Shape} (a : Fin t.rank) (vs : List (s₁.Idx → α))
    (h : Shape.Concatenates ((vs.map fun v => (⟨s₁, v⟩ : (s : Shape) × (s.Idx → α))).map (·.1)) t a)
    (hr : s₁.rank = t.rank) (K : Nat) (hK : s₁.size (a.cast hr.symm) = K) (j : t.Idx) (n : Fin vs.length)
    (hn : (j a).val / K = n.val) (i : s₁.Idx) (hia : (i (a.cast hr.symm)).val = (j a).val % K)
    (hi : ∀ b : Fin s₁.rank, b.cast hr ≠ a → (i b).val = (j (b.cast hr)).val) :
    concatenate t a (vs.map fun v => (⟨s₁, v⟩ : (s : Shape) × (s.Idx → α))) h j = vs.get n i := by
  -- the statement for any list equal to the by-position listing of `vs`, where the library's lemma applies as it stands
  have key : ∀ (xs : List ((s : Shape) × (s.Idx → α)))
      (e : xs = List.ofFn fun n : Fin vs.length => (⟨s₁, vs.get n⟩ : (s : Shape) × (s.Idx → α)))
      (hx : Shape.Concatenates (xs.map (·.1)) t a), concatenate t a xs hx j = vs.get n i := by
    intro xs e hx
    subst e
    exact concatenate_ofFn_apply a (fun n => vs.get n) hx hr K hK j n hn i hia hi
  exact key _ (map_eq_ofFn_get (fun v => (⟨s₁, v⟩ : (s : Shape) × (s.Idx → α))) vs) h

/-- A window of `T` columns, all rows, starting at column `off`, lies inside an `R × C` matrix when `off + T ≤ C`. -/
theorem slices_cols {R C T off : Nat} (h : off + T ≤ C) :
    (⟨2, ![R, C]⟩ : Shape).Slices ![0, off] ⟨2, ![R, T]⟩ :=
  ⟨rfl, fun (a : Fin 2) => match a with
    | ⟨0, _⟩ => Nat.le_of_eq (Nat.zero_add R)
    | ⟨1, _⟩ => h⟩

/-- The tiles of width `T` of the matrix `A` at the column offsets `offs`, in the list's order. -/
def colTiles {α : Type} {R C : Nat} (T : Nat) (A : (⟨2, ![R, C]⟩ : Shape).Idx → α) (offs : List Nat)
    (hoffs : ∀ off ∈ offs, off + T ≤ C) : List ((⟨2, ![R, T]⟩ : Shape).Idx → α) :=
  offs.pmap (fun off hoff => extractStridedSlice ⟨2, ![R, T]⟩ ![0, off] A (slices_cols hoff)) hoffs

theorem length_colTiles {α : Type} {R C : Nat} (T : Nat) (A : (⟨2, ![R, C]⟩ : Shape).Idx → α) (offs : List Nat)
    (hoffs : ∀ off ∈ offs, off + T ≤ C) : (colTiles T A offs hoffs).length = offs.length := by
  simp [colTiles]

/-- Tile `k` read at `i` is the matrix at `i`'s row and column `offs[k]` further right. -/
theorem colTiles_get_apply {α : Type} {R C : Nat} (T : Nat) (A : (⟨2, ![R, C]⟩ : Shape).Idx → α) (offs : List Nat)
    (hoffs : ∀ off ∈ offs, off + T ≤ C) (n : Fin (colTiles T A offs hoffs).length) (k : Fin offs.length) (hnk : n.val = k.val)
    (i : (⟨2, ![R, T]⟩ : Shape).Idx) (x : (⟨2, ![R, C]⟩ : Shape).Idx)
    (hx0 : (x 0).val = (i 0).val) (hx1 : (x 1).val = offs.get k + (i 1).val) :
    (colTiles T A offs hoffs).get n i = A x := by
  have hk : n.val < offs.length := hnk ▸ k.isLt
  have e : (colTiles T A offs hoffs).get n
      = extractStridedSlice ⟨2, ![R, T]⟩ ![0, offs[n.val]] A (slices_cols (hoffs _ (List.getElem_mem hk))) :=
    List.get_eq_getElem.trans
      (List.getElem_pmap (fun off hoff => extractStridedSlice ⟨2, ![R, T]⟩ ![0, off] A (slices_cols hoff)) hoffs n.isLt)
  rw [e]
  refine extractStridedSlice_apply _ A _ i x fun (b : Fin 2) => ?_
  match b with
  | ⟨0, _⟩ => exact hx0.trans (Nat.zero_add _).symm
  | ⟨1, _⟩ =>
    have hcol : offs.get k = offs[n.val] := by simp only [List.get_eq_getElem, hnk]
    show (x 1).val = offs[n.val] + (i 1).val
    exact hx1.trans (congrArg (· + (i 1).val) hcol)

/-- The tiles of width `T > 0` of `A` at the offsets `offs`, concatenated along the columns (axis `1`), read at `j`: with
    `k = (column of j) / T`, the matrix at `j`'s row and column `offs[k] + (column of j) % T`. -/
theorem concatenate_colTiles_apply {α : Type} {R C T : Nat} (hT : 0 < T) (A : (⟨2, ![R, C]⟩ : Shape).Idx → α)
    (offs : List Nat) (hoffs : ∀ off ∈ offs, off + T ≤ C) {t : Shape} (a : Fin t.rank)
    (h : Shape.Concatenates (((colTiles T A offs hoffs).map fun v => (⟨⟨2, ![R, T]⟩, v⟩ : (s : Shape) × (s.Idx → α))).map (·.1)) t a)
    (hr : (⟨2, ![R, T]⟩ : Shape).rank = t.rank) (ha : a = (1 : Fin 2).cast hr)
    (j : t.Idx) (k : Fin offs.length) (hk : (j a).val / T = k.val)
    (x : (⟨2, ![R, C]⟩ : Shape).Idx) (hx0 : (x 0).val = (j ((0 : Fin 2).cast hr)).val)
    (hx1 : (x 1).val = offs.get k + (j a).val % T) :
    concatenate t a ((colTiles T A offs hoffs).map fun v => (⟨⟨2, ![R, T]⟩, v⟩ : (s : Shape) × (s.Idx → α))) h j = A x := by
  subst ha
  -- the position inside the tile: `j`'s row, the column's remainder
  let i : (⟨2, ![R, T]⟩ : Shape).Idx := fun (b : Fin 2) => match b with
    | ⟨0, _⟩ => ⟨(x 0).val, (x 0).isLt⟩
    | ⟨1, _⟩ => ⟨(j ((1 : Fin 2).cast hr)).val % T, Nat.mod_lt _ hT⟩
  let n : Fin (colTiles T A offs hoffs).length := k.cast (length_colTiles T A offs hoffs).symm
  have h1 := concatenate_map_apply ((1 : Fin 2).cast hr) (colTiles T A offs hoffs) h hr T rfl j n hk i rfl
    (fun (b : Fin 2) => match b with
      | ⟨0, _⟩ => fun _ => hx0
      | ⟨1, _⟩ => fun hb => absurd (Fin.ext rfl) hb)
  rw [h1]
  exact colTiles_get_apply T A offs hoffs n k rfl i x rfl hx1

end Idealize.ShloMosaic
-- ==== Proof.KVocab.lean ====
/-
  The kernel body's arithmetic in one vocabulary: a slot's one-hot rows, the slot's product with a chunk of the table and
  the sum of its two halves, one trip of the chunk loop, the loop, and what the body stores.
-/
import proofs.«413369_j7902739825140_3_alg».proof.Proof.Gen.KernelIdeal.Skeleton
import proofs.«413369_j7902739825140_3_alg».proof.Proof.LibTiles
import Idealize.ShloMosaic.Lib.Pipeline.FrameBody

noncomputable section

namespace Cert.KernelIdeal.GatherK

open Idealize.ShloMosaic Cert.KernelIdeal Cert.KernelIdeal.Gen

variable {F : FTy → Type} [FloatOps F]

/-- The column index of every lane of a [1000, 2000] tile. -/
abbrev lanes : IVec S1000x2000 32 := iota .tc S1000x2000 32 [1] iota_S1000x2000_d1_w32

/-- The first table row of chunk k, as a word: 2000 k. -/
abbrev chunkBase (k : Fin k0_t1_loop.trips) : BitVec 32 := Scalar.muli (Scf.iv 0#32 1#32 k) 2000#32

/-- Chunk k of the table block: rows 2000 k to 2000 k + 1999, all 128 columns. -/
def chunk (x1 : Vec F S1x10000x128 .bf16) (k : Fin k0_t1_loop.trips) : Vec F S1x2000x128 .bf16 :=
  View.ld x1 (Rect.unit (s := S1x10000x128) (k0_off1 k) S1x2000x128.size (k0_off1_inb k))

/-- Slot s's one-hot rows against a chunk whose first row is `base`: lane j of row r is one when j is the slot's local
    index less the base. -/
def onehot (idx : IVec S1000x8 32) (base : BitVec 32) (s : Fin 8) : FVec F S1000x2000 .bf16 :=
  truncf .bf16 (sitofp .f32 (extui 32 (cmpi .eq lanes
    (broadcastTo S1000x2000 (subi (extractStridedSlice S1000x1 ![0, s.val] idx (slices_cols (by have := s.isLt; omega)))
      (broadcast S1000x1 base)) broadcasts_S1000x1_S1000x2000)) natLt_1_32)) bitsLt_bf16_f32

/-- Slot s's rows gathered from one chunk: the one-hot rows times the chunk, the left 64 columns plus the right 64. -/
def slotv (idx : IVec S1000x8 32) (base : BitVec 32) (tab : FVec F S2000x128 .bf16) (s : Fin 8) : FVec F S1000x64 .f32 :=
  addf
    (extractStridedSlice S1000x64 ![0, 0]
      (matmul dot_S1000x2000_S2000x128_S1000x128_1_0_0_1_n_n none (onehot idx base s) tab (constant S1000x128 .f32 0x00000000#32))
      slices_S1000x128_o0_0_S1000x64)
    (extractStridedSlice S1000x64 ![0, 64]
      (matmul dot_S1000x2000_S2000x128_S1000x128_1_0_0_1_n_n none (onehot idx base s) tab (constant S1000x128 .f32 0x00000000#32))
      slices_S1000x128_o0_64_S1000x64)

/-- The eight slots' rows from one chunk, side by side. -/
def slots (idx : IVec S1000x8 32) (base : BitVec 32) (tab : FVec F S2000x128 .bf16) : FVec F S1000x512 .f32 :=
  concatenate S1000x512 1 [⟨S1000x64, slotv idx base tab 0⟩, ⟨S1000x64, slotv idx base tab 1⟩, ⟨S1000x64, slotv idx base tab 2⟩,
    ⟨S1000x64, slotv idx base tab 3⟩, ⟨S1000x64, slotv idx base tab 4⟩, ⟨S1000x64, slotv idx base tab 5⟩,
    ⟨S1000x64, slotv idx base tab 6⟩, ⟨S1000x64, slotv idx base tab 7⟩]
    concatenates_S1000x64_S1000x64_S1000x64_S1000x64_S1000x64_S1000x64_S1000x64_S1000x64_S1000x512_d1

/-- One trip of the chunk loop: the accumulator plus chunk k's eight slots. -/
def tripF (x1 : Vec F S1x10000x128 .bf16) (x2 : Vec F S1x1000x8 .i32) (k : Fin k0_t1_loop.trips)
    (acc : FVec F S1000x512 .f32) : FVec F S1000x512 .f32 :=
  addf acc (slots (k0_pay1 x2) (chunkBase k) (k0_pay5 (chunk x1 k)))

/-- The accumulator before trip n, from zero. -/
def loopF (x1 : Vec F S1x10000x128 .bf16) (x2 : Vec F S1x1000x8 .i32) : ℕ → FVec F S1000x512 .f32
  | 0 => k0_pay2
  | n + 1 => if h : n < k0_t1_loop.trips then tripF x1 x2 ⟨n, h⟩ (loopF x1 x2 n) else loopF x1 x2 n

/-- What the body stores: the accumulator after the last trip beside the node's own rows. -/
def bodyF (x0 : Vec F S1x1000x64 .f32) (x1 : Vec F S1x10000x128 .bf16) (x2 : Vec F S1x1000x8 .i32) : Vec F S1x1000x576 .f32 :=
  k0_pay4 x0 (loopF x1 x2 k0_t1_loop.trips)

/-! The printed payloads in this vocabulary. -/

theorem pay6_eq (v1 : IVec S1000x8 32) (k : Fin k0_t1_loop.trips) (v15 : Vec F S1x2000x128 .bf16) :
    k0_pay6 v1 lanes 0#32 1#32 k v15 = slotv v1 (chunkBase k) (k0_pay5 v15) 0 := rfl
theorem pay7_eq (v1 : IVec S1000x8 32) (k : Fin k0_t1_loop.trips) (v15 : Vec F S1x2000x128 .bf16) :
    k0_pay7 v1 lanes 0#32 1#32 k v15 = slotv v1 (chunkBase k) (k0_pay5 v15) 1 := rfl
theorem pay8_eq (v1 : IVec S1000x8 32) (k : Fin k0_t1_loop.trips) (v15 : Vec F S1x2000x128 .bf16) :
    k0_pay8 v1 lanes 0#32 1#32 k v15 = slotv v1 (chunkBase k) (k0_pay5 v15) 2 := rfl

/-- The yield of a trip, over the first part's values. -/
theorem pay3_eq (x2 : Vec F S1x1000x8 .i32) (acc : FVec F S1000x512 .f32) (k : Fin k0_t1_loop.trips) (v15 : Vec F S1x2000x128 .bf16) :
    k0_pay3 x2 acc (chunkBase k) (k0_pay5 v15) (k0_pay6 (k0_pay1 x2) lanes 0#32 1#32 k v15) (k0_pay7 (k0_pay1 x2) lanes 0#32 1#32 k v15)
      (k0_pay8 (k0_pay1 x2) lanes 0#32 1#32 k v15) (k0_pay10 (k0_pay1 x2) lanes 0#32 1#32 k v15) (k0_pay11 (k0_pay1 x2) lanes 0#32 1#32 k v15)
      = addf acc (slots (k0_pay1 x2) (chunkBase k) (k0_pay5 v15)) := rfl

end Cert.KernelIdeal.GatherK

end
-- ==== Proof.KBody.lean ====
/-
  What the kernel body leaves in its output block, as a function of its three input blocks: the loop's trips read once.
-/
import proofs.«413369_j7902739825140_3_alg».proof.Proof.Gen.KernelIdeal.Frame
import proofs.«413369_j7902739825140_3_alg».proof.Proof.KVocab
import Idealize.ShloMosaic.Lib.Pipeline.Value
import Idealize.ShloMosaic.Lib.Tactic

set_option maxRecDepth 16384

noncomputable section

namespace Cert.KernelIdeal.GatherK

open Idealize.ShloMosaic Idealize.ShloMosaic.TcCoe Idealize.SL.Sem Cert.KernelIdeal Cert.KernelIdeal.Gen

variable {F : FTy → Type} [FloatOps F]

/-- One trip of the chunk loop, read off the table block's contents: the accumulator plus the eight slots' rows gathered from
    chunk k. -/
theorem trip_eq (𝒱 : Variants) (c : Dev nD) (bd : Option 𝒱.V) (i : grid0.Coords) (arg2 : Memref sig .tc .vmem S1x1000x64 .f32) (harg2 : arg2.IsWhole)
    (arg3 : Memref sig .tc .vmem S1x10000x128 .bf16) (harg3 : arg3.IsWhole) (arg4 : Memref sig .tc .vmem S1x1000x8 .i32) (harg4 : arg4.IsWhole)
    (arg5 : Memref sig .tc .vmem S1x1000x576 .f32) (harg5 : arg5.IsWhole)
    (x1 : Vec F S1x10000x128 .bf16) (x2 : Vec F S1x1000x8 .i32) (k : Fin k0_t1_loop.trips) (acc : FVec F S1000x512 .f32) :
    tripR_k0_t1 (F := F) 𝒱 c bd i arg2 harg2 arg3 harg3 arg4 harg4 arg5 harg5 x2 lanes (harg3.unread x1) k acc = tripF x1 x2 k acc := by
  unfold tripR_k0_t1 trip_k0_t1
  dsimp only
  sl_unfold_run_names
  simp only [View.readAt_eq_ld, harg3.read_unread]
  exact pay3_eq x2 acc k (chunk x1 k)

/-- The accumulator before trip n of the kernel's chunk loop, started from zero over the table block's contents, is `loopF`:
    both recur by the same trip, and both stand still past the last trip. -/
theorem st_eq (𝒱 : Variants) (c : Dev nD) (bd : Option 𝒱.V) (i : grid0.Coords) (arg2 : Memref sig .tc .vmem S1x1000x64 .f32) (harg2 : arg2.IsWhole)
    (arg3 : Memref sig .tc .vmem S1x10000x128 .bf16) (harg3 : arg3.IsWhole) (arg4 : Memref sig .tc .vmem S1x1000x8 .i32) (harg4 : arg4.IsWhole)
    (arg5 : Memref sig .tc .vmem S1x1000x576 .f32) (harg5 : arg5.IsWhole)
    (x1 : Vec F S1x10000x128 .bf16) (x2 : Vec F S1x1000x8 .i32) :
    ∀ n : ℕ, st_k0_t1 (F := F) 𝒱 c bd i arg2 harg2 arg3 harg3 arg4 harg4 arg5 harg5 x2 lanes (harg3.unread x1) (k0_pay2 (F := F)) n
      = loopF x1 x2 n
  | 0 => rfl
  | n + 1 => by
    rw [st_k0_t1.eq_2, loopF.eq_2]
    unfold st_k0_t1Step
    by_cases h : n < k0_t1_loop.trips
    · rw [dif_pos h, dif_pos h, trip_eq 𝒱 c bd i arg2 harg2 arg3 harg3 arg4 harg4 arg5 harg5 x1 x2 ⟨n, h⟩,
        st_eq 𝒱 c bd i arg2 harg2 arg3 harg3 arg4 harg4 arg5 harg5 x1 x2 n]
    · rw [dif_neg h, dif_neg h, st_eq 𝒱 c bd i arg2 harg2 arg3 harg3 arg4 harg4 arg5 harg5 x1 x2 n]

/-- The zero offsets of a rank-3 block, as the constant function. -/
theorem hz3 : (![0, 0, 0] : Fin 3 → Nat) = fun _ => 0 := funext fun a => by fin_cases a <;> rfl

/-- The body's output block is `bodyF` of its input blocks, on any staging buffers. -/
theorem out_eq (c : Dev nD) (i : grid0.Coords) (arg2 : Memref sig .tc .vmem S1x1000x64 .f32) (harg2 : arg2.IsWhole)
    (arg3 : Memref sig .tc .vmem S1x10000x128 .bf16) (harg3 : arg3.IsWhole) (arg4 : Memref sig .tc .vmem S1x1000x8 .i32) (harg4 : arg4.IsWhole)
    (arg5 : Memref sig .tc .vmem S1x1000x576 .f32) (harg5 : arg5.IsWhole)
    (x0 : Vec F S1x1000x64 .f32) (x1 : Vec F S1x10000x128 .bf16) (x2 : Vec F S1x1000x8 .i32) :
    out0_A_3 c i arg2 harg2 arg3 harg3 arg4 harg4 arg5 harg5 x0 x1 x2 = bodyF x0 x1 x2 := by
  -- the one store covers the whole block, so the block reads as that store's payload
  unfold out0_A_3
  rw [View.read_writes_eq_canon _ _ _ (cover0_A_3 c i arg2 harg2 arg3 harg3 arg4 harg4 arg5 harg5 x0 x1 x2)]
  unfold kernelRun0_A
  dsimp only
  sl_unfold_run_names
  rw [View.canon_unit_zero hz3]
  -- the payload's two whole-block loads read the node block and the index block themselves
  simp only [View.readAt_eq_ld, harg2.read_unread, harg4.read_unread, View.ld_unit_zero (S := S1x1000x64) hz3,
    View.ld_unit_zero (S := S1x1000x8) hz3]
  -- and its accumulator is the loop's value after the last of the five trips
  unfold bodyF
  exact congrArg (k0_pay4 x0)
    (st_eq Variants.none c none i arg2 harg2 arg3 harg3 arg4 harg4 arg5 harg5 x1 x2 k0_t1_loop.trips)

end Cert.KernelIdeal.GatherK

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.Spec.lean ====
/-
  What the gather computes, as one function of the two argument arrays.

  For a node (b, n) and a neighbour slot s below 8 the result row is the feature row of node (b, l) of the same batch,
  where l is the slot's index word made local: the word's floor remainder by 10000 when the word is non-negative, the
  all-ones word otherwise. A local word that, read unsigned, is below 10000 names a row; any other word names none and
  the result row is zero. Slot 8 is the node's own row.
-/
import Idealize.ShloMosaic.PureOps.Ideal
import Idealize.ShloMosaic.Lib.ValueIdx

noncomputable section

namespace Cert.GatherSpec

open Idealize.ShloMosaic Idealize.ShloMosaic.ValueIdx

/-- The divisor as the host's remainder function sees it: 10000, or 1 were it zero. -/
def divisor : BitVec 32 := Scalar.select (IntOp.cmpi .eq 10000#32 0#32) 1#32 10000#32

/-- The floor remainder of a 32-bit word by 10000 as the host computes it: the truncated remainder, moved up by the
    divisor when it is non-zero and its sign is not the divisor's. -/
def modw (w : BitVec 32) : BitVec 32 :=
  Scalar.select
    (IntOp.andi (IntOp.cmpi .ne (IntOp.cmpi .slt (IntOp.remsi .host w divisor) 0#32) (IntOp.cmpi .slt divisor 0#32))
      (IntOp.cmpi .ne (IntOp.remsi .host w divisor) 0#32))
    (IntOp.addi (IntOp.remsi .host w divisor) divisor) (IntOp.remsi .host w divisor)

/-- The local index word of a slot: the floor remainder of a non-negative word, all ones for a negative one. -/
def lidx (w : BitVec 32) : BitVec 32 := Scalar.select (IntOp.cmpi .sge w 0#32) (modw w) 4294967295#32

/-- Row w of batch b at feature f when the word, read unsigned, names one of the 10000 rows; zero otherwise. -/
def sel (inp : (⟨3, ![8, 10000, 64]⟩ : Shape).Idx → EReal) (b : Fin 8) (w : BitVec 32) (f : Fin 64) : EReal :=
  if h : w.toNat < 10000 then inp (ix3 b ⟨w.toNat, h⟩ f) else 0

/-- The result array: slots 0 to 7 the selected neighbour rows, slot 8 the node's own row. -/
def G (inp : (⟨3, ![8, 10000, 64]⟩ : Shape).Idx → EReal) (inds : (⟨3, ![8, 10000, 8]⟩ : Shape).Idx → BitVec 32) :
    (⟨4, ![8, 10000, 9, 64]⟩ : Shape).Idx → EReal := fun j =>
  let b : Fin 8 := j 0
  let n : Fin 10000 := j 1
  let f : Fin 64 := j 3
  if h : (j 2).val < 8 then sel inp b (lidx (inds (ix3 b n ⟨(j 2).val, h⟩))) f else inp (ix3 b n f)

/-- The same result with the slot and feature axes laid side by side: column 64 s + f for slot s below 8, columns 512 to 575
    the node's own row. -/
def G576 (inp : (⟨3, ![8, 10000, 64]⟩ : Shape).Idx → EReal) (inds : (⟨3, ![8, 10000, 8]⟩ : Shape).Idx → BitVec 32) :
    (⟨3, ![8, 10000, 576]⟩ : Shape).Idx → EReal := fun j =>
  let b : Fin 8 := j 0
  let n : Fin 10000 := j 1
  let col : Fin 576 := j 2
  if h : col.val < 512 then
    sel inp b (lidx (inds (ix3 b n ⟨col.val / 64, by omega⟩))) ⟨col.val % 64, Nat.mod_lt _ (by decide)⟩
  else inp (ix3 b n ⟨col.val - 512, by have := col.isLt; omega⟩)

end Cert.GatherSpec

end
-- ==== Proof.Words.lean ====
/-
  Facts about 32-bit words that both sides of the gather use: the floor remainder by 10000 of a non-negative word is below
  10000; a negative word's local index is the all-ones word; a lane of a chunk matches a local index exactly when the index
  is the chunk's base plus the lane; and the batch offset of a flat row.
-/
import proofs.«413369_j7902739825140_3_alg».proof.Proof.Spec
import Idealize.ShloMosaic.Lib.Affine

namespace Cert.GatherSpec

open Idealize.ShloMosaic

theorem divisor_eq : divisor = 10000#32 := by decide

/-- A select whose condition bit is not set takes its second value. -/
private theorem select_of_ne_one {α : Type} (c : BitVec 1) (a b : α) (h : ¬c = 1#1) : Scalar.select c a b = b := if_neg h

/-- A bit that is not one is zero. -/
private theorem bit_zero_of_ne_one {b : BitVec 1} (h : ¬b = 1#1) : b = 0#1 := by revert h; revert b; decide

/-- For a word that is non-negative read signed the floor remainder is the truncated remainder, which read unsigned is the
    remainder of the word read unsigned: it is non-negative, as the divisor is, so nothing is added. -/
theorem modw_eq_rem (w : BitVec 32) (h : IntOp.cmpi .sge w 0#32 = 1#1) :
    modw w = IntOp.remsi .host w 10000#32 ∧ (IntOp.remsi .host w 10000#32).toNat = w.toNat % 10000 := by
  have hw : 2 * w.toNat < 2 ^ 32 := (Scalar.nonneg_iff w).mp h
  have hr : (IntOp.remsi .host w 10000#32).toNat = w.toNat % 10000 :=
    IntOp.toNat_remsi .host hw 10000 (by decide) (by decide)
  refine ⟨?_, hr⟩
  unfold modw
  rw [divisor_eq]
  apply select_of_ne_one
  rw [IntOp.andi_eq_one, IntOp.cmpi_ne]
  rintro ⟨hne, -⟩
  apply hne
  have hlt : (IntOp.remsi .host w 10000#32).toNat < 10000 := by rw [hr]; exact Nat.mod_lt _ (by decide)
  have h1 : ¬IntOp.cmpi .slt (IntOp.remsi .host w 10000#32) 0#32 = 1#1 := by
    rw [IntOp.cmpi_slt, BitVec.toInt_eq_toNat_of_lt (by omega)]
    show ¬((IntOp.remsi .host w 10000#32).toNat : Int) < 0
    omega
  have h2 : ¬IntOp.cmpi .slt (10000#32 : BitVec 32) 0#32 = 1#1 := by decide
  rw [bit_zero_of_ne_one h1, bit_zero_of_ne_one h2]

/-- The floor remainder by 10000 of a word that is non-negative read signed is, read unsigned, below 10000. -/
theorem modw_lt (w : BitVec 32) (h : IntOp.cmpi .sge w 0#32 = 1#1) : (modw w).toNat < 10000 := by
  obtain ⟨e, hr⟩ := modw_eq_rem w h
  rw [e, hr]
  exact Nat.mod_lt _ (by decide)

theorem lidx_of_nonneg (w : BitVec 32) (h : IntOp.cmpi .sge w 0#32 = 1#1) : lidx w = modw w := by
  unfold lidx; rw [h]; rfl

theorem lidx_of_neg (w : BitVec 32) (h : ¬IntOp.cmpi .sge w 0#32 = 1#1) : lidx w = 4294967295#32 := by
  unfold lidx Scalar.select; exact if_neg h

/-- The local index of any word names a row exactly when the word is non-negative; it is then the floor remainder. -/
theorem lidx_lt_iff (w : BitVec 32) : (lidx w).toNat < 10000 ↔ IntOp.cmpi .sge w 0#32 = 1#1 := by
  constructor
  · intro hlt
    by_contra h
    rw [lidx_of_neg w h] at hlt
    revert hlt
    decide
  · intro h
    rw [lidx_of_nonneg w h]
    exact modw_lt w h

/-- Lane k of chunk c (first table row 2000 c) matches the local index w exactly when w, read unsigned, is 2000 c + k. -/
theorem chunk_hit (w : BitVec 32) (c k : Nat) (hc : c < 5) (hk : k < 2000) :
    BitVec.ofNat 32 k = IntOp.subi w (BitVec.ofNat 32 (2000 * c)) ↔ w.toNat = 2000 * c + k := by
  unfold IntOp.subi
  rw [← BitVec.toNat_inj, BitVec.toNat_sub, BitVec.toNat_ofNat, BitVec.toNat_ofNat]
  have := w.isLt
  omega

/-- The sign word of a 32-bit word: 0, 1 or all ones. -/
def sgnw (x : BitVec 32) : BitVec 32 := if x = 0 then 0 else if x.msb then -1 else 1

/-- The floor quotient of a word by 10000: the truncated quotient, less one when the signs differ and the remainder is not
    zero. -/
def fdivw (x : BitVec 32) : BitVec 32 :=
  Scalar.select (IntOp.andi (IntOp.cmpi .ne (sgnw x) (sgnw 10000#32)) (IntOp.cmpi .ne (IntOp.remsi .host x 10000#32) 0#32))
    (IntOp.subi (IntOp.divsi .host x 10000#32) 1#32) (IntOp.divsi .host x 10000#32)

/-- The truncated quotient by 10000 of a word that is non-negative read signed is the quotient of the word read unsigned. -/
theorem toNat_divsi_10000 (x : BitVec 32) (hx : 2 * x.toNat < 2 ^ 32) :
    (IntOp.divsi .host x 10000#32).toNat = x.toNat / 10000 := by
  have hm : x.msb = false := by rw [BitVec.msb_eq_false_iff_two_mul_lt]; exact hx
  have hk : (10000#32 : BitVec 32).msb = false := by decide
  unfold IntOp.divsi
  rw [if_neg (IntOp.not_corner_of_pos (by decide)), BitVec.sdiv_eq, hm, hk]
  show (x / 10000#32).toNat = _
  rw [BitVec.toNat_udiv]
  rfl

/-- For a flat row number n below 80000 the floor quotient times 10000 is the first flat row of n's batch. -/
theorem seqoff_word (n : Nat) (hn : n < 80000) :
    IntOp.muli (fdivw (BitVec.ofNat 32 n)) 10000#32 = BitVec.ofNat 32 (n / 10000 * 10000) := by
  have hx : (BitVec.ofNat 32 n).toNat = n := by rw [BitVec.toNat_ofNat]; omega
  have hx2 : 2 * (BitVec.ofNat 32 n).toNat < 2 ^ 32 := by rw [hx]; omega
  have hq := toNat_divsi_10000 _ hx2
  have hf : fdivw (BitVec.ofNat 32 n) = IntOp.divsi .host (BitVec.ofNat 32 n) 10000#32 := by
    unfold fdivw
    apply select_of_ne_one
    rw [IntOp.andi_eq_one, IntOp.cmpi_ne, IntOp.cmpi_ne]
    rintro ⟨h1, h2⟩
    by_cases h0 : n = 0
    · subst h0
      exact h2 (by decide)
    · apply h1
      have hne : ¬BitVec.ofNat 32 n = 0 := by
        intro he
        have := congrArg BitVec.toNat he
        rw [hx] at this
        exact h0 this
      have hm : (BitVec.ofNat 32 n).msb = false := by rw [BitVec.msb_eq_false_iff_two_mul_lt]; exact hx2
      have hs : sgnw (BitVec.ofNat 32 n) = 1 := by
        unfold sgnw
        rw [if_neg hne, hm]
        rfl
      rw [hs]
      decide
  rw [hf]
  apply BitVec.eq_of_toNat_eq
  show ((IntOp.divsi .host (BitVec.ofNat 32 n) 10000#32) * 10000#32).toNat = _
  rw [BitVec.toNat_mul, hq, hx, BitVec.toNat_ofNat, BitVec.toNat_ofNat]

end Cert.GatherSpec
-- ==== Proof.KBodyVal.lean ====
/-
  The body's output block at the ideal values, entry by entry: a slot's 64 columns are the sum of the two halves of the table
  row its local index names (zero when it names none), the last 64 columns the node's own row.
-/
import proofs.«413369_j7902739825140_3_alg».proof.Proof.KVocab
import proofs.«413369_j7902739825140_3_alg».proof.Proof.LibPlainDot
import proofs.«413369_j7902739825140_3_alg».proof.Proof.Words
import Idealize.ShloMosaic.PureOps.Ideal.Laws
import Idealize.ShloMosaic.Lib.ValueIdx
import Idealize.ShloMosaic.Lib.Pipeline.Value
import Idealize.ShloMosaic.Lib.KernelVsHost

noncomputable section

namespace Cert.KernelIdeal.GatherK

open Idealize.ShloMosaic Idealize.ShloMosaic.ValueIdx Cert.KernelIdeal Cert.KernelIdeal.Gen
open scoped BigOperators

/-- Row w of the table block, column f plus column 64 + f, when w read unsigned names one of the 10000 rows; zero otherwise. -/
def rowSum (x1 : Vec Ideal S1x10000x128 .bf16) (w : BitVec 32) (f : Fin 64) : EReal :=
  if h : w.toNat < 10000 then
    x1 (ix3 0 ⟨w.toNat, h⟩ ⟨f.val, by have := f.isLt; omega⟩) + x1 (ix3 0 ⟨w.toNat, h⟩ ⟨64 + f.val, by have := f.isLt; omega⟩)
  else 0

/-- The chunk loop runs five times. -/
theorem trips5 : k0_t1_loop.trips = 5 := by decide

/-- A comparison bit widened to a word and converted: one when the two words are equal, zero otherwise. -/
theorem eqBit_val (A B : BitVec 32) :
    (FloatOps.sitofp (F := Ideal) .f32 ((IntOp.cmpi .eq A B).setWidth 32) : EReal) = if A = B then 1 else 0 := by
  show ((((IntOp.cmpi .eq A B).setWidth 32).toInt : ℝ) : EReal) = _
  rw [toInt_setWidth_bit]
  by_cases h : A = B
  · rw [if_pos h]
    have : IntOp.cmpi .eq A B = 1#1 := by simp [IntOp.cmpi, h]
    rw [this]; simp
  · rw [if_neg h]
    have : IntOp.cmpi .eq A B = 0#1 := by
      have hb : (A == B) = false := beq_eq_false_iff_ne.mpr h
      simp [IntOp.cmpi, hb]
    rw [this]; simp

/-- Lane k of row r of slot s's one-hot rows: one when k is the slot's local index less the base, zero otherwise. -/
theorem onehot_apply (idx : IVec S1000x8 32) (base : BitVec 32) (s : Fin 8) (r : Fin 1000) (k : Fin 2000) :
    onehot (F := Ideal) idx base s (ix2 r k)
      = if BitVec.ofNat 32 k.val = IntOp.subi (idx (ix2 r s)) base then (1 : EReal) else 0 := by
  have hl : lanes (ix2 r k) = BitVec.ofNat 32 k.val :=
    iota_single_apply .tc S1000x2000 32 1 iota_S1000x2000_d1_w32 (ix2 r k)
  have hb : broadcastTo S1000x2000 (subi (extractStridedSlice S1000x1 ![0, s.val] idx (slices_cols (by have := s.isLt; omega)))
      (broadcast S1000x1 base)) broadcasts_S1000x1_S1000x2000 (ix2 r k) = IntOp.subi (idx (ix2 r s)) base := by
    refine (broadcastTo_apply _ _ (ix2 r k) (ix2 r (0 : Fin 1)) ?_).trans ?_
    · intro a
      match a with
      | ⟨0, _⟩ => rfl
      | ⟨1, _⟩ => rfl
    · show IntOp.subi (extractStridedSlice S1000x1 ![0, s.val] idx _ (ix2 r (0 : Fin 1))) base = _
      congr 1
      refine extractStridedSlice_apply _ idx _ (ix2 r (0 : Fin 1)) (ix2 r s) fun a => ?_
      match a with
      | ⟨0, _⟩ => exact (Nat.zero_add _).symm
      | ⟨1, _⟩ => rfl
  unfold onehot
  refine (eqBit_val (lanes (ix2 r k)) _).trans ?_
  rw [hl, hb]

/-- The one-hot rows times a table onto a zero accumulator, at an entry: the sum over the lanes. -/
theorem prod_apply (oh : FVec Ideal S1000x2000 .bf16) (tab : FVec Ideal S2000x128 .bf16) (r : Fin 1000) (j : Fin 128) :
    matmul dot_S1000x2000_S2000x128_S1000x128_1_0_0_1_n_n none oh tab (constant (F := Ideal) S1000x128 .f32 0x00000000#32) (ix2 r j)
      = ∑ k : Fin 2000, oh (ix2 r k) * tab (ix2 k j) :=
  PlainDot.matmul_zero_apply (M := 1000) (K := 2000) (N := 128) none oh tab r j

/-- A sum over the 2000 lanes of chunk c weighted by "lane k matches w": the term of the lane w − 2000 c when w lies in the
    chunk, zero otherwise. On the extended reals 0 · x = 0 for every x, so nothing is asked of g. -/
theorem pick_sum (w : BitVec 32) (c : Nat) (hc : c < 5) (g : Fin 2000 → EReal) :
    ∑ k : Fin 2000, (if BitVec.ofNat 32 k.val = IntOp.subi w (BitVec.ofNat 32 (2000 * c)) then (1 : EReal) else 0) * g k
      = if h : 2000 * c ≤ w.toNat ∧ w.toNat < 2000 * c + 2000 then g ⟨w.toNat - 2000 * c, by omega⟩ else 0 := by
  by_cases h : 2000 * c ≤ w.toNat ∧ w.toNat < 2000 * c + 2000
  · rw [dif_pos h]
    rw [Finset.sum_eq_single (⟨w.toNat - 2000 * c, by omega⟩ : Fin 2000)]
    · rw [if_pos ((Cert.GatherSpec.chunk_hit w c _ hc (by omega)).mpr (by show w.toNat = 2000 * c + (w.toNat - 2000 * c); omega)), one_mul]
    · intro b _ hb
      rw [if_neg, zero_mul]
      intro he
      have := (Cert.GatherSpec.chunk_hit w c b.val hc b.isLt).mp he
      exact hb (Fin.ext (by show b.val = w.toNat - 2000 * c; omega))
    · intro hn
      exact absurd (Finset.mem_univ _) hn
  · rw [dif_neg h]
    refine Finset.sum_eq_zero fun b _ => ?_
    rw [if_neg, zero_mul]
    intro he
    have := (Cert.GatherSpec.chunk_hit w c b.val hc b.isLt).mp he
    have := b.isLt
    exact h (by omega)

/-- One of the two products of a slot, at an entry, when the chunk's first row is 2000 c: the table entry in the row the
    local index names inside the chunk, zero when it names none there. -/
theorem slotProd_apply (idx : IVec S1000x8 32) (c : Nat) (hc : c < 5) (tab : FVec Ideal S2000x128 .bf16) (s : Fin 8)
    (r : Fin 1000) (j : Fin 128) :
    matmul dot_S1000x2000_S2000x128_S1000x128_1_0_0_1_n_n none (onehot (F := Ideal) idx (BitVec.ofNat 32 (2000 * c)) s) tab
        (constant (F := Ideal) S1000x128 .f32 0x00000000#32) (ix2 r j)
      = if h : 2000 * c ≤ (idx (ix2 r s)).toNat ∧ (idx (ix2 r s)).toNat < 2000 * c + 2000 then
          tab (ix2 ⟨(idx (ix2 r s)).toNat - 2000 * c, by omega⟩ j) else 0 := by
  refine (prod_apply _ tab r j).trans ?_
  refine (Finset.sum_congr rfl fun k _ => ?_).trans (pick_sum (idx (ix2 r s)) c hc fun k => tab (ix2 k j))
  rw [onehot_apply]

/-- A slot's 64 columns from the chunk whose first row is 2000 c: the two halves of the table row the local index names
    inside the chunk, added; zero when it names none there. -/
theorem slotv_apply (idx : IVec S1000x8 32) (c : Nat) (hc : c < 5) (tab : FVec Ideal S2000x128 .bf16) (s : Fin 8)
    (r : Fin 1000) (f : Fin 64) :
    slotv (F := Ideal) idx (BitVec.ofNat 32 (2000 * c)) tab s (ix2 r f)
      = if h : 2000 * c ≤ (idx (ix2 r s)).toNat ∧ (idx (ix2 r s)).toNat < 2000 * c + 2000 then
          tab (ix2 ⟨(idx (ix2 r s)).toNat - 2000 * c, by omega⟩ ⟨f.val, by have := f.isLt; omega⟩)
            + tab (ix2 ⟨(idx (ix2 r s)).toNat - 2000 * c, by omega⟩ ⟨64 + f.val, by have := f.isLt; omega⟩)
        else 0 := by
  unfold slotv
  rw [addf_apply]
  have hL := extractStridedSlice_apply ![0, 0]
    (matmul dot_S1000x2000_S2000x128_S1000x128_1_0_0_1_n_n none (onehot (F := Ideal) idx (BitVec.ofNat 32 (2000 * c)) s) tab
      (constant (F := Ideal) S1000x128 .f32 0x00000000#32)) slices_S1000x128_o0_0_S1000x64 (ix2 r f)
    (ix2 r (⟨f.val, by have := f.isLt; omega⟩ : Fin 128)) (fun a => match a with
      | ⟨0, _⟩ => (Nat.zero_add _).symm
      | ⟨1, _⟩ => (Nat.zero_add _).symm)
  have hR := extractStridedSlice_apply ![0, 64]
    (matmul dot_S1000x2000_S2000x128_S1000x128_1_0_0_1_n_n none (onehot (F := Ideal) idx (BitVec.ofNat 32 (2000 * c)) s) tab
      (constant (F := Ideal) S1000x128 .f32 0x00000000#32)) slices_S1000x128_o0_64_S1000x64 (ix2 r f)
    (ix2 r (⟨64 + f.val, by have := f.isLt; omega⟩ : Fin 128)) (fun a => match a with
      | ⟨0, _⟩ => (Nat.zero_add _).symm
      | ⟨1, _⟩ => rfl)
  rw [hL, hR, slotProd_apply idx c hc, slotProd_apply idx c hc]
  by_cases h : 2000 * c ≤ (idx (ix2 r s)).toNat ∧ (idx (ix2 r s)).toNat < 2000 * c + 2000
  · rw [dif_pos h, dif_pos h, dif_pos h]
  · rw [dif_neg h, dif_neg h, dif_neg h, add_zero]

/-- The index block without its unit axis. -/
theorem pay1_apply (x2 : Vec Ideal S1x1000x8 .i32) (r : Fin 1000) (s : Fin 8) :
    k0_pay1 (F := Ideal) x2 (ix2 r s) = x2 (ix3 0 r s) := by
  unfold k0_pay1
  refine (shapeCast_dropUnit_apply ![1000, 8] x2 shapeCasts_S1x1000x8_S1000x8 (ix2 r s)).trans ?_
  refine congrArg x2 (funext fun a => ?_)
  match a with
  | ⟨0, _⟩ => rfl
  | ⟨1, _⟩ => rfl
  | ⟨2, _⟩ => rfl

/-- The chunk loop has five trips. -/
theorem trip_lt (k : Fin k0_t1_loop.trips) : k.val < 5 := lt_of_lt_of_eq k.isLt trips5

/-- The first table row of chunk k is 2000 k. -/
theorem chunkBase_eq : ∀ k : Fin k0_t1_loop.trips, chunkBase k = BitVec.ofNat 32 (2000 * k.val) := by decide

/-- Chunk k of the table block as a matrix: row i of it is row 2000 k + i of the block. -/
theorem pay5_chunk_apply (x1 : Vec Ideal S1x10000x128 .bf16) (k : Fin k0_t1_loop.trips) (i : Fin 2000) (j : Fin 128) :
    k0_pay5 (F := Ideal) (chunk x1 k) (ix2 i j)
      = x1 (ix3 0 ⟨2000 * k.val + i.val, by have := trip_lt k; have := i.isLt; omega⟩ j) := by
  unfold k0_pay5
  refine (shapeCast_dropUnit_apply ![2000, 128] (chunk x1 k) shapeCasts_S1x2000x128_S2000x128 (ix2 i j)).trans ?_
  unfold chunk
  refine congrArg x1 (funext fun a => Fin.ext ?_)
  match a with
  | ⟨0, _⟩ =>
    show k0_off1 k 0 + 1 * 0 = 0
    rw [k0_off1_eq k]; rfl
  | ⟨1, _⟩ =>
    show k0_off1 k 1 + 1 * i.val = 2000 * k.val + i.val
    rw [k0_off1_eq k]; simp
  | ⟨2, _⟩ =>
    show k0_off1 k 2 + 1 * j.val = j.val
    rw [k0_off1_eq k]; simp

/-- A slot's 64 columns from chunk k of the table block: the slot's selected row when its local index lies in chunk k,
    zero otherwise. -/
theorem slotv_chunk_apply (x1 : Vec Ideal S1x10000x128 .bf16) (idx : IVec S1000x8 32) (k : Fin k0_t1_loop.trips) (s : Fin 8)
    (r : Fin 1000) (f : Fin 64) :
    slotv (F := Ideal) idx (chunkBase k) (k0_pay5 (chunk x1 k)) s (ix2 r f)
      = if (idx (ix2 r s)).toNat / 2000 = k.val then rowSum x1 (idx (ix2 r s)) f else 0 := by
  have hk := trip_lt k
  rw [chunkBase_eq k, slotv_apply idx k.val hk]
  by_cases h : 2000 * k.val ≤ (idx (ix2 r s)).toNat ∧ (idx (ix2 r s)).toNat < 2000 * k.val + 2000
  · have hw : (idx (ix2 r s)).toNat < 10000 := by omega
    rw [dif_pos h, if_pos (by omega), pay5_chunk_apply, pay5_chunk_apply]
    unfold rowSum
    rw [dif_pos hw]
    have e : 2000 * k.val + ((idx (ix2 r s)).toNat - 2000 * k.val) = (idx (ix2 r s)).toNat := by omega
    congr 1 <;> refine congrArg x1 (funext fun a => Fin.ext ?_) <;> match a with
      | ⟨0, _⟩ => rfl
      | ⟨1, _⟩ => exact e
      | ⟨2, _⟩ => rfl
  · rw [dif_neg h, if_neg (by omega)]

/-- The eight slots side by side: columns 64 s to 64 s + 63 are slot s's 64 columns. -/
theorem slots_apply (idx : IVec S1000x8 32) (base : BitVec 32) (tab : FVec Ideal S2000x128 .bf16) (r : Fin 1000) (s : Fin 8)
    (f : Fin 64) :
    slots (F := Ideal) idx base tab (ix2 r ⟨64 * s.val + f.val, by have := s.isLt; have := f.isLt; omega⟩)
      = slotv (F := Ideal) idx base tab s (ix2 r f) := by
  unfold slots
  have hf := f.isLt
  have hs := s.isLt
  exact concatenate_ofFn_apply (t := S1000x512) (s₁ := S1000x64) 1 (fun n : Fin 8 => slotv (F := Ideal) idx base tab n)
    concatenates_S1000x64_S1000x64_S1000x64_S1000x64_S1000x64_S1000x64_S1000x64_S1000x64_S1000x512_d1 rfl 64 rfl
    (ix2 r ⟨64 * s.val + f.val, by omega⟩) s (by show (64 * s.val + f.val) / 64 = s.val; omega) (ix2 r f)
    (by show f.val = (64 * s.val + f.val) % 64; omega)
    (fun b => match b with
      | ⟨0, _⟩ => fun _ => rfl
      | ⟨1, _⟩ => fun hb => absurd (Fin.ext rfl) hb)

/-- One more trip of the chunk loop. -/
theorem loopF_succ (x1 : Vec Ideal S1x10000x128 .bf16) (x2 : Vec Ideal S1x1000x8 .i32) (n : Nat) (h : n < k0_t1_loop.trips) :
    loopF (F := Ideal) x1 x2 (n + 1) = tripF x1 x2 ⟨n, h⟩ (loopF x1 x2 n) := dif_pos h

/-- The accumulator before trip n, in slot s's columns: the slot's selected row once the chunk its local index lies in is
    among the first n, zero before (a sum of zeros and at most one row: 0 + x = x on the extended reals). -/
theorem loopF_apply (x1 : Vec Ideal S1x10000x128 .bf16) (x2 : Vec Ideal S1x1000x8 .i32) (r : Fin 1000) (s : Fin 8) (f : Fin 64) :
    ∀ n : Nat, n ≤ 5 →
      loopF (F := Ideal) x1 x2 n (ix2 r ⟨64 * s.val + f.val, by have := s.isLt; have := f.isLt; omega⟩)
        = if (x2 (ix3 0 r s)).toNat / 2000 < n then rowSum x1 (x2 (ix3 0 r s)) f else 0
  | 0, _ => by
    rw [if_neg (Nat.not_lt_zero _)]
    show Ideal.ofBits .f32 0x00000000#32 = 0
    exact Ideal.ofBits_zero_f32
  | n + 1, hn => by
    have hlt : n < k0_t1_loop.trips := lt_of_lt_of_eq (by omega : n < 5) trips5.symm
    rw [loopF_succ x1 x2 n hlt]
    unfold tripF
    rw [addf_apply, loopF_apply x1 x2 r s f n (by omega), slots_apply, slotv_chunk_apply, pay1_apply]
    show _ + (if (x2 (ix3 0 r s)).toNat / 2000 = n then _ else _) = _
    by_cases h1 : (x2 (ix3 0 r s)).toNat / 2000 < n
    · rw [if_pos h1, if_neg (by omega), if_pos (by omega), add_zero]
    · by_cases h2 : (x2 (ix3 0 r s)).toNat / 2000 = n
      · rw [if_neg h1, if_pos h2, if_pos (by omega), zero_add]
      · rw [if_neg h1, if_neg h2, if_neg (by omega), add_zero]

/-- After the five trips slot s's columns hold the slot's selected row. -/
theorem loopF_total (x1 : Vec Ideal S1x10000x128 .bf16) (x2 : Vec Ideal S1x1000x8 .i32) (r : Fin 1000) (s : Fin 8) (f : Fin 64) :
    loopF (F := Ideal) x1 x2 k0_t1_loop.trips (ix2 r ⟨64 * s.val + f.val, by have := s.isLt; have := f.isLt; omega⟩)
      = rowSum x1 (x2 (ix3 0 r s)) f := by
  have e : loopF (F := Ideal) x1 x2 k0_t1_loop.trips = loopF x1 x2 5 := congrArg (loopF x1 x2) trips5
  rw [e, loopF_apply x1 x2 r s f 5 (Nat.le_refl 5)]
  by_cases h : (x2 (ix3 0 r s)).toNat / 2000 < 5
  · rw [if_pos h]
  · rw [if_neg h]
    unfold rowSum
    rw [dif_neg (by omega)]

/-- Columns 64 s to 64 s + 63 of the body's block: slot s's selected row. -/
theorem bodyF_slot (x0 : Vec Ideal S1x1000x64 .f32) (x1 : Vec Ideal S1x10000x128 .bf16) (x2 : Vec Ideal S1x1000x8 .i32)
    (r : Fin 1000) (s : Fin 8) (f : Fin 64) :
    bodyF (F := Ideal) x0 x1 x2 (ix3 0 r ⟨64 * s.val + f.val, by have := s.isLt; have := f.isLt; omega⟩)
      = rowSum x1 (x2 (ix3 0 r s)) f := by
  have hs := s.isLt
  have hf := f.isLt
  unfold bodyF k0_pay4
  refine (shapeCast_addUnit_apply ![1000, 576] _ shapeCasts_S1000x576_S1x1000x576
    (ix3 0 r ⟨64 * s.val + f.val, by omega⟩)).trans ?_
  refine (concatenate_pair_apply_left (t := S1000x576) (s₁ := S1000x512) (s₂ := S1000x64) 1 _ _
    concatenates_S1000x512_S1000x64_S1000x576_d1 _ rfl (ix2 r ⟨64 * s.val + f.val, by omega⟩)
    (fun b => match b with
      | ⟨0, _⟩ => rfl
      | ⟨1, _⟩ => rfl)).trans ?_
  exact loopF_total x1 x2 r s f

/-- Columns 512 to 575: the node's own row. -/
theorem bodyF_self (x0 : Vec Ideal S1x1000x64 .f32) (x1 : Vec Ideal S1x10000x128 .bf16) (x2 : Vec Ideal S1x1000x8 .i32)
    (r : Fin 1000) (f : Fin 64) :
    bodyF (F := Ideal) x0 x1 x2 (ix3 0 r ⟨512 + f.val, by have := f.isLt; omega⟩) = x0 (ix3 0 r f) := by
  have hf := f.isLt
  unfold bodyF k0_pay4
  refine (shapeCast_addUnit_apply ![1000, 576] _ shapeCasts_S1000x576_S1x1000x576
    (ix3 0 r ⟨512 + f.val, by omega⟩)).trans ?_
  refine (concatenate_pair_apply_right (t := S1000x576) (s₁ := S1000x512) (s₂ := S1000x64) 1 _ _
    concatenates_S1000x512_S1000x64_S1000x576_d1 _ rfl rfl (ix2 r f)
    (fun b => match b with
      | ⟨0, _⟩ => fun _ => rfl
      | ⟨1, _⟩ => fun hb => absurd (Fin.ext rfl) hb)
    (by show f.val + 512 = 512 + f.val; omega)).trans ?_
  refine (shapeCast_dropUnit_apply ![1000, 64] x0 shapeCasts_S1x1000x64_S1000x64 (ix2 r f)).trans ?_
  refine congrArg x0 (funext fun a => ?_)
  match a with
  | ⟨0, _⟩ => rfl
  | ⟨1, _⟩ => rfl
  | ⟨2, _⟩ => rfl

end Cert.KernelIdeal.GatherK

end
-- ==== Proof.KHost.lean ====
/-
  What the kernel's region finds in its table and index arrays: the host operations before the region, as functions of the
  two arguments, and those functions entry by entry at the ideal values.
-/
import proofs.«413369_j7902739825140_3_alg».proof.Proof.Gen.KernelIdeal.Frame
import proofs.«413369_j7902739825140_3_alg».proof.Proof.Words
import Idealize.ShloMosaic.Lib.StableHlo.Run
import Idealize.ShloMosaic.Lib.ValueIdx
import Idealize.ShloMosaic.Lib.Pipeline.Value

noncomputable section

namespace Cert.KernelIdeal.GatherK

open Idealize.ShloMosaic Idealize.ShloMosaic.TcCoe Idealize.ShloMosaic.ValueIdx Idealize.SL.Sem Cert.KernelIdeal Cert.KernelIdeal.Gen
open Cert.GatherSpec (lidx)

variable {F : FTy → Type} [FloatOps F]

/-- The table the region reads: the features rounded to the narrow format beside the rounded residue of that rounding. -/
def tableK (x : FVec F S8x10000x64 .f32) : FVec F S8x10000x128 .bf16 :=
  concatenate S8x10000x128 2
    [⟨S8x10000x64, truncf .bf16 x bitsLt_bf16_f32⟩,
     ⟨S8x10000x64, truncf .bf16 (subf x (extf .f32 (truncf .bf16 x bitsLt_bf16_f32) bitsLt_bf16_f32)) bitsLt_bf16_f32⟩]
    concatenates_S8x10000x64_S8x10000x64_S8x10000x128_d2

/-- The floor remainder by 10000 of every index word. -/
def remK (i : IVec S8x10000x8 32) : IVec S8x10000x8 32 :=
  let c2 : IVec S_ 32 := constantI S_ 32 10000#32
  let r0 : IVec S_ 32 := id c2
  let rc : IVec S_ 32 := constantI S_ 32 0#32
  let r1 : IVec S_ 1 := cmpi .eq r0 rc
  let rc0 : IVec S_ 32 := constantI S_ 32 1#32
  let r2 : IVec S_ 32 := select r1 rc0 r0
  let r3 : IVec S8x10000x8 32 := broadcastInDim S8x10000x8 ![] bcast_S_S8x10000x8 r2
  let r4 : IVec S8x10000x8 32 := Host.remsi i r3
  let rc1 : IVec S_ 32 := constantI S_ 32 0#32
  let r5 : IVec S8x10000x8 32 := broadcastInDim S8x10000x8 ![] bcast_S_S8x10000x8 rc1
  let r6 : IVec S8x10000x8 1 := cmpi .ne r4 r5
  let rc2 : IVec S_ 32 := constantI S_ 32 0#32
  let r7 : IVec S8x10000x8 32 := broadcastInDim S8x10000x8 ![] bcast_S_S8x10000x8 rc2
  let r8 : IVec S8x10000x8 1 := cmpi .slt r4 r7
  let rc3 : IVec S_ 32 := constantI S_ 32 0#32
  let r9 : IVec S_ 1 := cmpi .slt r2 rc3
  let r10 : IVec S8x10000x8 1 := broadcastInDim S8x10000x8 ![] bcast_S_S8x10000x8 r9
  let r11 : IVec S8x10000x8 1 := cmpi .ne r8 r10
  let r12 : IVec S8x10000x8 1 := andi r11 r6
  let r13 : IVec S8x10000x8 32 := broadcastInDim S8x10000x8 ![] bcast_S_S8x10000x8 r2
  let r14 : IVec S8x10000x8 32 := addi r4 r13
  select r12 r14 r4

/-- The local index array the region reads: the floor remainder of a non-negative word, all ones for a negative one. -/
def idxK (i : IVec S8x10000x8 32) : IVec S8x10000x8 32 :=
  let c : IVec S_ 32 := constantI S_ 32 0#32
  let v0 : IVec S8x10000x8 32 := broadcastInDim S8x10000x8 ![] bcast_S_S8x10000x8 c
  let v1 : IVec S8x10000x8 1 := cmpi .sge i v0
  let v2 : IVec S8x10000x8 32 := remK i
  let c1 : IVec S_ 32 := constantI S_ 32 4294967295#32
  let w0 : IVec S8x10000x8 32 := broadcastInDim S8x10000x8 ![] bcast_S_S8x10000x8 c1
  select v1 v2 w0

variable (m : (ℓ : Loc nD τ sig) → Buf (Elt F) ℓ)

/-- The table array as the region finds it. -/
theorem V_table (c : Dev nD) : V m c main_v8 = tableK (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The index array as the region finds it. -/
theorem V_idx (c : Dev nD) : V m c main_v3 = idxK (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- Entry by entry the index array is the local index of the argument's word. -/
theorem idxK_apply (i : IVec S8x10000x8 32) (j : S8x10000x8.Idx) : idxK i j = lidx (i j) := by
  unfold idxK remK Cert.GatherSpec.lidx Cert.GatherSpec.modw Cert.GatherSpec.divisor
  rfl

/-- At the ideal values the left 64 columns of the table are the features themselves, -/
theorem tableK_hi (x : FVec Ideal S8x10000x64 .f32) (b : Fin 8) (n : Fin 10000) (f : Fin 64) :
    tableK (F := Ideal) x (ix3 b n ⟨f.val, by have := f.isLt; omega⟩) = x (ix3 b n f) := by
  unfold tableK
  -- column f < 64 lies in the first piece, read at the same coordinates
  rw [concatenate_pair_apply_left (t := S8x10000x128) (s₁ := S8x10000x64) (s₂ := S8x10000x64) (2 : Fin 3) _ _ _ _ rfl (ix3 b n f)
    (fun d => by fin_cases d <;> rfl)]
  -- rounding to the narrow format is the identity on exact values
  rfl

/-- and the right 64 columns are zero when every feature is a real number: a real less itself. -/
theorem tableK_lo (x : FVec Ideal S8x10000x64 .f32) (hx : ∀ j, ∃ r : ℝ, x j = (r : EReal)) (b : Fin 8) (n : Fin 10000) (f : Fin 64) :
    tableK (F := Ideal) x (ix3 b n ⟨64 + f.val, by have := f.isLt; omega⟩) = 0 := by
  unfold tableK
  -- column 64 + f lies in the second piece, read at column f
  rw [concatenate_pair_apply_right (t := S8x10000x128) (s₁ := S8x10000x64) (s₂ := S8x10000x64) (2 : Fin 3) _ _ _ _ rfl rfl (ix3 b n f)
    (fun d hd => by fin_cases d <;> first | rfl | exact absurd rfl hd)
    (by show f.val + 64 = 64 + f.val; omega)]
  -- the residue of an exact value against itself: a real less itself
  rw [truncf_apply, subf_apply, extf_apply, truncf_apply]
  obtain ⟨r, hr⟩ := hx (ix3 b n f)
  rw [hr, ← EReal.coe_sub, sub_self, EReal.coe_zero]

end Cert.KernelIdeal.GatherK

end
-- ==== Proof.KFinal.lean ====
/-
  The kernel's run read as a value: every block the region writes back is a block of one array-wide function, the blocks
  cover the array, and the reshape after the region regroups its columns into slots.
-/
import proofs.«413369_j7902739825140_3_alg».proof.Proof.Gen.KernelIdeal.Frame
import proofs.«413369_j7902739825140_3_alg».proof.Proof.KBody
import proofs.«413369_j7902739825140_3_alg».proof.Proof.KBodyVal
import proofs.«413369_j7902739825140_3_alg».proof.Proof.KHost
import proofs.«413369_j7902739825140_3_alg».proof.Proof.Spec
import Idealize.ShloMosaic.Lib.Pipeline.Value
import Idealize.ShloMosaic.Lib.StableHlo.Run
import Idealize.ShloMosaic.Lib.ValueIdx

noncomputable section

namespace Cert.KernelIdeal.GatherK

open Idealize.ShloMosaic Idealize.ShloMosaic.TcCoe Idealize.ShloMosaic.ValueIdx Idealize.SL.Sem Cert.KernelIdeal Cert.KernelIdeal.Gen
open Idealize.ShloMosaic.Pipeline (Dat)
open Cert.GatherSpec (G G576 sel lidx)

variable (m : (ℓ : Loc nD τ sig) → Buf (Elt Ideal) ℓ) (ρ : Dev nD → PrngReg)

/-- Grid point t works on batch t / 10 and on row tile t % 10: every window's block index on the batch axis is t / 10, the
    row-tiled windows' index on the row axis is t % 10, the table's is 0, and every block starts at column 0. -/
theorem idx_facts : ∀ t : Fin cfg0.N,
    win0_0.index t (0 : Fin 3) = t.val / 10 ∧ win0_0.index t (1 : Fin 3) = t.val % 10 ∧ win0_0.index t (2 : Fin 3) = 0
    ∧ win0_1.index t (0 : Fin 3) = t.val / 10 ∧ win0_1.index t (1 : Fin 3) = 0 ∧ win0_1.index t (2 : Fin 3) = 0
    ∧ win0_2.index t (0 : Fin 3) = t.val / 10 ∧ win0_2.index t (1 : Fin 3) = t.val % 10 ∧ win0_2.index t (2 : Fin 3) = 0
    ∧ win0_3.index t (0 : Fin 3) = t.val / 10 ∧ win0_3.index t (1 : Fin 3) = t.val % 10 ∧ win0_3.index t (2 : Fin 3) = 0 :=
  (by decide +kernel : ∀ t : Fin grid0.N, _)

/-- The batch grid point t works on. -/
def batchOf (t : Fin cfg0.N) : Fin 8 := ⟨t.val / 10, by have := t.isLt; have hN : cfg0.N = 80 := N_0; omega⟩

/-- Row r of grid point t's tile, as a row of the batch: 1000 (t % 10) + r. -/
def rowOf (t : Fin cfg0.N) (r : Fin 1000) : Fin 10000 := ⟨1000 * (t.val % 10) + r.val, by have := r.isLt; omega⟩

/-- The feature block of point t is rows 1000 (t % 10) to 1000 (t % 10) + 999 of batch t / 10 of the features. -/
theorem iblk0_apply (c : Dev nD) (t : Fin cfg0.N) (r : Fin 1000) (f : Fin 64) :
    (iblk m c 0 t : Vec Ideal S1x1000x64 .f32) (ix3 0 r f)
      = m ((c.tc : Thread nD τ).loc main_arg0) (ix3 (batchOf t) (rowOf t r) f) := by
  obtain ⟨e0, e1, e2, -⟩ := idx_facts t
  unfold iblk
  rw [View.read_apply]
  show V m c main_arg0 (((cfg0.win 0).blk t).view.emb (ix3 0 r f)) = _
  rw [V_main_arg0]
  congr 1
  funext a
  apply Fin.ext
  match a with
  | ⟨0, _⟩ => show win0_0.index t (0 : Fin 3) * 1 + 1 * (0 : Fin 1).val = t.val / 10; rw [e0]; simp
  | ⟨1, _⟩ => show win0_0.index t (1 : Fin 3) * 1000 + 1 * r.val = 1000 * (t.val % 10) + r.val; rw [e1]; omega
  | ⟨2, _⟩ => show win0_0.index t (2 : Fin 3) * 64 + 1 * f.val = f.val; rw [e2]; omega

/-- The table block of point t is all of batch t / 10 of the table the region finds. -/
theorem iblk1_apply (c : Dev nD) (t : Fin cfg0.N) (n : Fin 10000) (j : Fin 128) :
    (iblk m c 1 t : Vec Ideal S1x10000x128 .bf16) (ix3 0 n j)
      = tableK (F := Ideal) (m ((c.tc : Thread nD τ).loc main_arg0)) (ix3 (batchOf t) n j) := by
  obtain ⟨-, -, -, e0, e1, e2, -⟩ := idx_facts t
  unfold iblk
  rw [View.read_apply]
  show V m c main_v8 (((cfg0.win 1).blk t).view.emb (ix3 0 n j)) = _
  rw [V_table]
  congr 1
  funext a
  apply Fin.ext
  match a with
  | ⟨0, _⟩ => show win0_1.index t (0 : Fin 3) * 1 + 1 * (0 : Fin 1).val = t.val / 10; rw [e0]; simp
  | ⟨1, _⟩ => show win0_1.index t (1 : Fin 3) * 10000 + 1 * n.val = n.val; rw [e1]; omega
  | ⟨2, _⟩ => show win0_1.index t (2 : Fin 3) * 128 + 1 * j.val = j.val; rw [e2]; omega

/-- The index block of point t is rows 1000 (t % 10) to 1000 (t % 10) + 999 of batch t / 10 of the local indices. -/
theorem iblk2_apply (c : Dev nD) (t : Fin cfg0.N) (r : Fin 1000) (s : Fin 8) :
    (iblk m c 2 t : Vec Ideal S1x1000x8 .i32) (ix3 0 r s)
      = idxK (m ((c.tc : Thread nD τ).loc main_arg1)) (ix3 (batchOf t) (rowOf t r) s) := by
  obtain ⟨-, -, -, -, -, -, e0, e1, e2, -⟩ := idx_facts t
  unfold iblk
  rw [View.read_apply]
  show V m c main_v3 (((cfg0.win 2).blk t).view.emb (ix3 0 r s)) = _
  rw [V_idx]
  congr 1
  funext a
  apply Fin.ext
  match a with
  | ⟨0, _⟩ => show win0_2.index t (0 : Fin 3) * 1 + 1 * (0 : Fin 1).val = t.val / 10; rw [e0]; simp
  | ⟨1, _⟩ => show win0_2.index t (1 : Fin 3) * 1000 + 1 * r.val = 1000 * (t.val % 10) + r.val; rw [e1]; omega
  | ⟨2, _⟩ => show win0_2.index t (2 : Fin 3) * 8 + 1 * s.val = s.val; rw [e2]; omega

/-- A column below 512 of the body's block is column c % 64 of slot c / 64's selected row. -/
theorem bodyF_col_lt (x0 : Vec Ideal S1x1000x64 .f32) (x1 : Vec Ideal S1x10000x128 .bf16) (x2 : Vec Ideal S1x1000x8 .i32)
    (r : Fin 1000) (col : Fin 576) (h : col.val < 512) :
    bodyF (F := Ideal) x0 x1 x2 (ix3 0 r col)
      = rowSum x1 (x2 (ix3 0 r ⟨col.val / 64, by omega⟩)) ⟨col.val % 64, Nat.mod_lt _ (by decide)⟩ := by
  have e : col = ⟨64 * (col.val / 64) + col.val % 64, by omega⟩ :=
    Fin.ext (by show col.val = 64 * (col.val / 64) + col.val % 64; omega)
  exact (congrArg (fun k => bodyF (F := Ideal) x0 x1 x2 (ix3 0 r k)) e).trans
    (bodyF_slot x0 x1 x2 r ⟨col.val / 64, by omega⟩ ⟨col.val % 64, Nat.mod_lt _ (by decide)⟩)

/-- A column from 512 on is column c - 512 of the node's own row. -/
theorem bodyF_col_ge (x0 : Vec Ideal S1x1000x64 .f32) (x1 : Vec Ideal S1x10000x128 .bf16) (x2 : Vec Ideal S1x1000x8 .i32)
    (r : Fin 1000) (col : Fin 576) (h : ¬ col.val < 512) :
    bodyF (F := Ideal) x0 x1 x2 (ix3 0 r col) = x0 (ix3 0 r ⟨col.val - 512, by have := col.isLt; omega⟩) := by
  have e : col = ⟨512 + (col.val - 512), by have := col.isLt; omega⟩ :=
    Fin.ext (by show col.val = 512 + (col.val - 512); omega)
  exact (congrArg (fun k => bodyF (F := Ideal) x0 x1 x2 (ix3 0 r k)) e).trans
    (bodyF_self x0 x1 x2 r ⟨col.val - 512, by have := col.isLt; omega⟩)

/-- The flat gather at a column below 512: slot c / 64's selected row at feature c % 64. -/
theorem G576_lt (x : FVec Ideal S8x10000x64 .f32) (i : IVec S8x10000x8 32) (b : Fin 8) (n : Fin 10000) (col : Fin 576)
    (h : col.val < 512) :
    G576 x i (ix3 b n col)
      = sel x b (lidx (i (ix3 b n ⟨col.val / 64, by omega⟩))) ⟨col.val % 64, Nat.mod_lt _ (by decide)⟩ := dif_pos h

/-- The flat gather at a column from 512 on: the node's own row at feature c - 512. -/
theorem G576_ge (x : FVec Ideal S8x10000x64 .f32) (i : IVec S8x10000x8 32) (b : Fin 8) (n : Fin 10000) (col : Fin 576)
    (h : ¬ col.val < 512) :
    G576 x i (ix3 b n col) = x (ix3 b n ⟨col.val - 512, by have := col.isLt; omega⟩) := dif_neg h

/-- A selected row of batch b's table block, left half plus right half, is the selected row of the features: the left half
    is the features and the right half is zero when every feature is a real number. -/
theorem rowSum_table (x : FVec Ideal S8x10000x64 .f32) (hx : ∀ j, ∃ r : ℝ, x j = (r : EReal))
    (x1 : Vec Ideal S1x10000x128 .bf16) (b : Fin 8) (h1 : ∀ n j, x1 (ix3 0 n j) = tableK (F := Ideal) x (ix3 b n j))
    (w : BitVec 32) (f : Fin 64) : rowSum x1 w f = sel x b w f := by
  unfold rowSum sel
  by_cases hw : w.toNat < 10000
  · rw [dif_pos hw, dif_pos hw, h1, h1, tableK_hi, tableK_lo x hx, add_zero]
  · rw [dif_neg hw, dif_neg hw]

/-- The body's block at rows `row` of batch b, when its three input blocks are those rows of the features, batch b of the
    table and those rows of the local indices: entry (r, c) is the flat gather at (b, row r, c). -/
theorem block_value (x : FVec Ideal S8x10000x64 .f32) (hx : ∀ j, ∃ r : ℝ, x j = (r : EReal)) (i : IVec S8x10000x8 32)
    (x0 : Vec Ideal S1x1000x64 .f32) (x1 : Vec Ideal S1x10000x128 .bf16) (x2 : Vec Ideal S1x1000x8 .i32)
    (b : Fin 8) (row : Fin 1000 → Fin 10000)
    (h0 : ∀ r f, x0 (ix3 0 r f) = x (ix3 b (row r) f))
    (h1 : ∀ n j, x1 (ix3 0 n j) = tableK (F := Ideal) x (ix3 b n j))
    (h2 : ∀ r s, x2 (ix3 0 r s) = idxK i (ix3 b (row r) s))
    (r : Fin 1000) (col : Fin 576) :
    bodyF (F := Ideal) x0 x1 x2 (ix3 0 r col) = G576 x i (ix3 b (row r) col) := by
  by_cases h : col.val < 512
  · rw [bodyF_col_lt x0 x1 x2 r col h, h2, idxK_apply, G576_lt x i b (row r) col h]
    exact rowSum_table x hx x1 b h1 _ _
  · rw [bodyF_col_ge x0 x1 x2 r col h, h0, G576_ge x i b (row r) col h]

/-- What the body leaves in its output block at point t is the body's function of the point's three input blocks. -/
theorem outsAt_eq (c : Dev nD) (t : Fin cfg0.N) :
    outsAt0 m c t = bodyF (F := Ideal) (iblk m c 0 t) (iblk m c 1 t) (iblk m c 2 t) := by
  unfold outsAt0
  exact out_eq ..

/-- Two [1, 1000, 576] blocks are equal when they agree at every (0, r, c): the leading axis has one coordinate. -/
theorem ext_block {α : Type} (u v : S1x1000x576.Idx → α)
    (h : ∀ (r : Fin 1000) (col : Fin 576), u (ix3 0 r col) = v (ix3 0 r col)) : u = v := by
  funext y
  have e : y = ix3 (0 : Fin 1) (y 1) (y 2) := by
    funext a
    match a with
    | ⟨0, _⟩ => exact Fin.ext (Nat.lt_one_iff.mp (y 0).isLt)
    | ⟨1, _⟩ => rfl
    | ⟨2, _⟩ => rfl
  rw [e]
  exact h _ _

/-- Entry (0, r, c) of point t's output block sits at (t / 10, 1000 (t % 10) + r, c) of the output array. -/
theorem emb_out (t : Fin cfg0.N) (r : Fin 1000) (col : Fin 576) :
    ((cfg0.win 3).blk t).view.emb (ix3 0 r col) = (ix3 (batchOf t) (rowOf t r) col : S8x10000x576.Idx) := by
  obtain ⟨-, -, -, -, -, -, -, -, -, e0, e1, e2⟩ := idx_facts t
  funext a
  apply Fin.ext
  match a with
  | ⟨0, _⟩ => show win0_3.index t (0 : Fin 3) * 1 + 1 * (0 : Fin 1).val = t.val / 10; rw [e0]; simp
  | ⟨1, _⟩ => show win0_3.index t (1 : Fin 3) * 1000 + 1 * r.val = 1000 * (t.val % 10) + r.val; rw [e1]; omega
  | ⟨2, _⟩ => show win0_3.index t (2 : Fin 3) * 576 + 1 * col.val = col.val; rw [e2]; omega

/-- WHAT POINT t WRITES BACK is block t of the flat gather of the two arguments. -/
theorem flushed_eq (hfin : ∀ (c : Dev nD) (j : S8x10000x64.Idx), ∃ r : ℝ, m ((c.tc : Thread nD τ).loc main_arg0) j = (r : EReal))
    (c : Dev nD) (t : Fin cfg0.N) :
    (dats m 0 c).flushed 3 t = ((cfg0.win 3).blk t).view.read (Elt Ideal)
      (G576 (m ((c.tc : Thread nD τ).loc main_arg0)) (m ((c.tc : Thread nD τ).loc main_arg1))) := by
  show (cfg0.win 3).cut (grid0.coords t) ((dats m 0 c).after 3 t) = _
  rw [after0_3, outsAt_eq]
  refine ext_block _ _ (fun r col => ?_)
  rw [View.read_apply]
  show bodyF (F := Ideal) (iblk m c 0 t) (iblk m c 1 t) (iblk m c 2 t) (ix3 0 r col)
    = G576 (m ((c.tc : Thread nD τ).loc main_arg0)) (m ((c.tc : Thread nD τ).loc main_arg1))
        (((cfg0.win 3).blk t).view.emb (ix3 0 r col))
  rw [emb_out]
  exact block_value (m ((c.tc : Thread nD τ).loc main_arg0)) (hfin c) (m ((c.tc : Thread nD τ).loc main_arg1))
    (iblk m c 0 t) (iblk m c 1 t) (iblk m c 2 t) (batchOf t) (rowOf t)
    (iblk0_apply m c t) (iblk1_apply m c t) (iblk2_apply m c t) r col

/-- An index of the output array is in point t's block iff each coordinate is in the block's range on its axis. -/
theorem mem_blk (t : Fin cfg0.N) (i : S8x10000x576.Idx) :
    i ∈ ((cfg0.win 3).blk t).view.set ↔ ∀ a : Fin 3, win0_3.index t a * S1x1000x576.size a ≤ (i a).val
      ∧ (i a).val < win0_3.index t a * S1x1000x576.size a + S1x1000x576.size a := by
  show i ∈ ((View.whole main_v9).slice (win0_3.rect t)).set ↔ _
  rw [View.set_slice_whole, Rect.mem_set_unit]
  exact Iff.rfl

/-- The grid point whose block holds row n of batch b: 10 b + n / 1000. -/
def pointOf (b : Fin 8) (n : Fin 10000) : Fin cfg0.N :=
  ⟨10 * b.val + n.val / 1000, by have hN : cfg0.N = 80 := N_0; have := b.isLt; have := n.isLt; omega⟩

/-- Its number, as a natural. -/
theorem pointOf_val (b : Fin 8) (n : Fin 10000) : (pointOf b n).val = 10 * b.val + n.val / 1000 := rfl

/-- Every index of the output array is in some point's block, and every point writes its block back. -/
theorem cover (i : S8x10000x576.Idx) :
    ∃ t : Fin cfg0.N, (cfg0.win 3).flush t = true ∧ i ∈ ((cfg0.win 3).blk t).view.set := by
  have h0 : (i 0).val < 8 := (i 0).isLt
  have h1 : (i 1).val < 10000 := (i 1).isLt
  have h2 : (i 2).val < 576 := (i 2).isLt
  refine ⟨pointOf (i 0) (i 1), flush0_3 _, ?_⟩
  rw [mem_blk]
  obtain ⟨-, -, -, -, -, -, -, -, -, e0, e1, e2⟩ := idx_facts (pointOf (i 0) (i 1))
  have v : (pointOf (i 0) (i 1)).val = 10 * (i 0).val + (i 1).val / 1000 := rfl
  intro a
  match a with
  | ⟨0, _⟩ =>
    show win0_3.index (pointOf (i 0) (i 1)) (0 : Fin 3) * 1 ≤ (i 0).val
      ∧ (i 0).val < win0_3.index (pointOf (i 0) (i 1)) (0 : Fin 3) * 1 + 1
    rw [e0]; omega
  | ⟨1, _⟩ =>
    show win0_3.index (pointOf (i 0) (i 1)) (1 : Fin 3) * 1000 ≤ (i 1).val
      ∧ (i 1).val < win0_3.index (pointOf (i 0) (i 1)) (1 : Fin 3) * 1000 + 1000
    rw [e1]; omega
  | ⟨2, _⟩ =>
    show win0_3.index (pointOf (i 0) (i 1)) (2 : Fin 3) * 576 ≤ (i 2).val
      ∧ (i 2).val < win0_3.index (pointOf (i 0) (i 1)) (2 : Fin 3) * 576 + 576
    rw [e2]; omega

/-- THE OUTPUT ARRAY after the region is the flat gather of the two arguments. -/
theorem final (hfin : ∀ (c : Dev nD) (j : S8x10000x64.Idx), ∃ r : ℝ, m ((c.tc : Thread nD τ).loc main_arg0) j = (r : EReal))
    (c : Dev nD) :
    (dats m 0 c).arrAt 3 cfg0.N
      = G576 (m ((c.tc : Thread nD τ).loc main_arg0)) (m ((c.tc : Thread nD τ).loc main_arg1)) :=
  (dats m 0 c).arrAt_eq_of_cover 3 (G576 (m ((c.tc : Thread nD τ).loc main_arg0)) (m ((c.tc : Thread nD τ).loc main_arg1)))
    (fun t _ => flushed_eq m hfin c t) cover

/-- The gather at a slot below 8: the slot's selected row. -/
theorem G_lt (x : FVec Ideal S8x10000x64 .f32) (i : IVec S8x10000x8 32) (b : Fin 8) (n : Fin 10000) (s : Fin 9) (f : Fin 64)
    (h : s.val < 8) : G x i (ix4 b n s f) = sel x b (lidx (i (ix3 b n ⟨s.val, h⟩))) f := dif_pos h

/-- The gather at slot 8: the node's own row. -/
theorem G_ge (x : FVec Ideal S8x10000x64 .f32) (i : IVec S8x10000x8 32) (b : Fin 8) (n : Fin 10000) (s : Fin 9) (f : Fin 64)
    (h : ¬ s.val < 8) : G x i (ix4 b n s f) = x (ix3 b n f) := dif_neg h

/-- A selected row depends only on the index word and the feature. -/
theorem sel_congr (x : FVec Ideal S8x10000x64 .f32) (b : Fin 8) {w w' : BitVec 32} {f f' : Fin 64} (hw : w = w') (hf : f = f') :
    sel x b w f = sel x b w' f' := by rw [hw, hf]

/-- Column 64 s + f of the flat gather is feature f of slot s of the gather: 64 s + f is below 512 exactly when s is below
    8, its quotient by 64 is s and its remainder f, and 512 + f less 512 is f. -/
theorem G576_at (x : FVec Ideal S8x10000x64 .f32) (i : IVec S8x10000x8 32) (b : Fin 8) (n : Fin 10000) (s : Fin 9) (f : Fin 64) :
    G576 x i (ix3 b n ⟨64 * s.val + f.val, by have := s.isLt; have := f.isLt; omega⟩) = G x i (ix4 b n s f) := by
  have hf : f.val < 64 := f.isLt
  have hs9 : s.val < 9 := s.isLt
  by_cases hs : s.val < 8
  · rw [G576_lt x i b n _ (by show 64 * s.val + f.val < 512; omega), G_lt x i b n s f hs]
    refine sel_congr x b (congrArg (fun k => lidx (i (ix3 b n k))) (Fin.ext ?_)) (Fin.ext ?_)
    · show (64 * s.val + f.val) / 64 = s.val; omega
    · show (64 * s.val + f.val) % 64 = f.val; omega
  · rw [G576_ge x i b n _ (by show ¬ 64 * s.val + f.val < 512; omega), G_ge x i b n s f hs]
    refine congrArg (fun k => x (ix3 b n k)) (Fin.ext ?_)
    show 64 * s.val + f.val - 512 = f.val; omega

/-- The flat gather regrouped to [8, 10000, 9, 64] is the gather: entry (b, n, s, f) has the row-major position of entry
    (b, n, 64 s + f). -/
theorem reshape_G576 (x : FVec Ideal S8x10000x64 .f32) (i : IVec S8x10000x8 32) :
    shapeCast S8x10000x9x64 (G576 x i) shapeCasts_S8x10000x576_S8x10000x9x64 = G x i := by
  funext j
  obtain ⟨b, n, s, f, rfl⟩ : ∃ b n s f, j = ix4 b n s f := ⟨j 0, j 1, j 2, j 3, eq_ix4 j⟩
  have hf : f.val < 64 := f.isLt
  have hs9 : s.val < 9 := s.isLt
  refine (shapeCast_apply (G576 x i) shapeCasts_S8x10000x576_S8x10000x9x64 (ix4 b n s f)
    (ix3 b n ⟨64 * s.val + f.val, by omega⟩) ?_).trans (G576_at x i b n s f)
  rw [Shape.rowMajor_val_three, Shape.rowMajor_val_four]
  show (b.val * 10000 + n.val) * 576 + (64 * s.val + f.val) = ((b.val * 10000 + n.val) * 9 + s.val) * 64 + f.val
  omega

/-- The one host line after the region regroups the output array's columns into slots: the result is the gather. -/
theorem tail_eq (hfin : ∀ (c : Dev nD) (j : S8x10000x64.Idx), ∃ r : ℝ, m ((c.tc : Thread nD τ).loc main_arg0) j = (r : EReal))
    (c : Dev nD) :
    Pipeline.afterTail₀ cfgs (dats m) 0 (V0 m) [hostOps1] c main_v10
      = G (m ((c.tc : Thread nD τ).loc main_arg0)) (m ((c.tc : Thread nD τ).loc main_arg1)) := by
  unfold Pipeline.afterTail₀
  show StableHlo.after hostOps1 _ (Proc.devRef .tc main_v10) = _
  after_results
  refine Eq.trans ?_ (reshape_G576 (m ((c.tc : Thread nD τ).loc main_arg0)) (m ((c.tc : Thread nD τ).loc main_arg1)))
  have e : Pipeline.withArrays spec0 c (V0 m c) (fun w => (dats m 0 c).arrAt w cfg0.N) (Proc.devRef .tc main_v9)
      = G576 (m ((c.tc : Thread nD τ).loc main_arg0)) (m ((c.tc : Thread nD τ).loc main_arg1)) :=
    (Pipeline.withArrays_arr spec0 launch0.win.arr_inj c _ _ 3).trans (final m hfin c)
  show shapeCast S8x10000x9x64
      (Pipeline.withArrays spec0 c (V0 m c) (fun w => (dats m 0 c).arrAt w cfg0.N) (Proc.devRef .tc main_v9))
      shapeCasts_S8x10000x576_S8x10000x9x64 = _
  rw [e]

/-- When every feature is a real number, every weakly fair execution of the kernel's program ends with its result at the
    gather of its two arguments, and the arguments unchanged. -/
theorem run (hfin : ∀ (c : Dev nD) (j : S8x10000x64.Idx), ∃ r : ℝ, m ((c.tc : Thread nD τ).loc main_arg0) j = (r : EReal)) :
    θ_run (defs (F := Ideal)) (onTc (τ := τ) (main (F := Ideal))) ⟨m, fun _ => 0, ρ⟩ fun r => ∀ c : Dev nD,
      r.2.mem ((c.tc : Thread nD τ).loc main_v10)
          = Cert.GatherSpec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v10 (Pipeline.mem_restRefs_of main_v10 (by decide) (by decide))).trans (tail_eq m hfin c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.GatherK

end
-- ==== Proof.RefTerm.lean ====
/-
  The reference's result as one term of its two arguments: the operations of its program in order, its helper functions
  (floor division, floor remainder, the selects) written out where they are called.
-/
import proofs.«413369_j7902739825140_3_alg».proof.Proof.Gen.ReferenceIdeal

noncomputable section

namespace Cert.ReferenceIdeal.RefValue

open Idealize.ShloMosaic Cert.ReferenceIdeal Cert.ReferenceIdeal.Gen

variable {F : FTy → Type} [FloatOps F]

/-- The offset of each flat row's batch in the flat node table: (row / 10000) * 10000, the quotient rounded down
    (the truncated quotient, less one when the signs differ and the remainder is not zero). -/
def seqOffset : IVec S80000 32 :=
  let v2 : IVec S80000 32 := iotaInDim S80000 32 0
  let c : IVec S_ 32 := constantI S_ 32 10000#32
  let d0 : IVec S_ 32 := id c
  let d1 : IVec S80000 32 := broadcastInDim S80000 ![] bcast_S_S80000 d0
  let d2 : IVec S80000 32 := Host.divsi v2 d1
  let d3 : IVec S80000 32 := signi v2
  let d4 : IVec S_ 32 := signi d0
  let d5 : IVec S80000 32 := broadcastInDim S80000 ![] bcast_S_S80000 d4
  let d6 : IVec S80000 1 := cmpi .ne d3 d5
  let d7 : IVec S80000 32 := broadcastInDim S80000 ![] bcast_S_S80000 d0
  let d8 : IVec S80000 32 := Host.remsi v2 d7
  let dc : IVec S_ 32 := constantI S_ 32 0#32
  let d9 : IVec S80000 32 := broadcastInDim S80000 ![] bcast_S_S80000 dc
  let d10 : IVec S80000 1 := cmpi .ne d8 d9
  let d11 : IVec S80000 1 := andi d6 d10
  let dc0 : IVec S_ 32 := constantI S_ 32 1#32
  let d12 : IVec S80000 32 := broadcastInDim S80000 ![] bcast_S_S80000 dc0
  let d13 : IVec S80000 32 := subi d2 d12
  let v3 : IVec S80000 32 := select d11 d13 d2
  let c0 : IVec S_ 32 := constantI S_ 32 10000#32
  let v4 : IVec S80000 32 := broadcastInDim S80000 ![] bcast_S_S80000 c0
  muli v3 v4

/-- The floor remainder by 10000 of every index word of the flat index array: the truncated remainder, plus 10000
    when it is not zero and its sign is not the divisor's. -/
def remOf (v1 : IVec S80000x8 32) : IVec S80000x8 32 :=
  let c2 : IVec S_ 32 := constantI S_ 32 10000#32
  let r0 : IVec S_ 32 := id c2
  let rc : IVec S_ 32 := constantI S_ 32 0#32
  let r1 : IVec S_ 1 := cmpi .eq r0 rc
  let rc0 : IVec S_ 32 := constantI S_ 32 1#32
  let r2 : IVec S_ 32 := select r1 rc0 r0
  let r3 : IVec S80000x8 32 := broadcastInDim S80000x8 ![] bcast_S_S80000x8 r2
  let r4 : IVec S80000x8 32 := Host.remsi v1 r3
  let rc1 : IVec S_ 32 := constantI S_ 32 0#32
  let r5 : IVec S80000x8 32 := broadcastInDim S80000x8 ![] bcast_S_S80000x8 rc1
  let r6 : IVec S80000x8 1 := cmpi .ne r4 r5
  let rc2 : IVec S_ 32 := constantI S_ 32 0#32
  let r7 : IVec S80000x8 32 := broadcastInDim S80000x8 ![] bcast_S_S80000x8 rc2
  let r8 : IVec S80000x8 1 := cmpi .slt r4 r7
  let rc3 : IVec S_ 32 := constantI S_ 32 0#32
  let r9 : IVec S_ 1 := cmpi .slt r2 rc3
  let r10 : IVec S80000x8 1 := broadcastInDim S80000x8 ![] bcast_S_S80000x8 r9
  let r11 : IVec S80000x8 1 := cmpi .ne r8 r10
  let r12 : IVec S80000x8 1 := andi r11 r6
  let r13 : IVec S80000x8 32 := broadcastInDim S80000x8 ![] bcast_S_S80000x8 r2
  let r14 : IVec S80000x8 32 := addi r4 r13
  select r12 r14 r4

/-- The row of the extended table each (flat row, slot) reads: the wrapped local index plus the batch's offset for a
    non-negative index word, the appended last row 80000 for a negative one; then a negative row number is
    moved up by the table's 80001 rows. -/
def rowOf (i : IVec S8x10000x8 32) : IVec S80000x8x1 32 :=
  let v1 : IVec S80000x8 32 := shapeCast S80000x8 i shapeCasts_S8x10000x8_S80000x8
  let c1 : IVec S_ 32 := constantI S_ 32 0#32
  let v6 : IVec S80000x8 32 := broadcastInDim S80000x8 ![] bcast_S_S80000x8 c1
  let v7 : IVec S80000x8 1 := cmpi .sge v1 v6
  let v8 : IVec S80000x8 32 := remOf v1
  let v9 : IVec S80000x1 32 := broadcastInDim S80000x1 ![0] bcast_S80000_S80000x1_0 seqOffset
  let v10 : IVec S80000x8 32 := broadcastInDim S80000x8 ![0, 1] bcast_S80000x1_S80000x8_0_1 v9
  let v11 : IVec S80000x8 32 := addi v8 v10
  let c3 : IVec S_ 32 := constantI S_ 32 80000#32
  let w0 : IVec S80000x8 32 := broadcastInDim S80000x8 ![] bcast_S_S80000x8 c3
  let v12 : IVec S80000x8 32 := select v7 v11 w0
  let c4 : IVec S_ 32 := constantI S_ 32 0#32
  let v15 : IVec S80000x8 32 := broadcastInDim S80000x8 ![] bcast_S_S80000x8 c4
  let v16 : IVec S80000x8 1 := cmpi .slt v12 v15
  let c5 : IVec S_ 32 := constantI S_ 32 80001#32
  let v17 : IVec S80000x8 32 := broadcastInDim S80000x8 ![] bcast_S_S80000x8 c5
  let v18 : IVec S80000x8 32 := addi v12 v17
  let v19 : IVec S80000x8 32 := select v16 v18 v12
  broadcastInDim S80000x8x1 ![0, 1] bcast_S80000x8_S80000x8x1_0_1 v19

/-- The flat node table with a row of zeros appended. -/
def tableOf (x : FVec F S8x10000x64 .f32) : FVec F S80001x64 .f32 :=
  let v0 : FVec F S80000x64 .f32 := shapeCast S80000x64 x shapeCasts_S8x10000x64_S80000x64
  let cst : FVec F S_ .f32 := constant S_ .f32 0x00000000#32
  let v13 : FVec F S1x64 .f32 := broadcastInDim S1x64 ![] bcast_S_S1x64 cst
  concatenate S80001x64 0 [⟨S80000x64, v0⟩, ⟨S1x64, v13⟩] concatenates_S80000x64_S1x64_S80001x64_d0

/-- The reference's result: the gathered rows, regrouped by batch, with each node's own row as a ninth slot. -/
def refTerm (x : FVec F S8x10000x64 .f32) (i : IVec S8x10000x8 32) : FVec F S8x10000x9x64 .f32 :=
  let v21 : FVec F S80000x8x64 .f32 := Host.gather gather_S80001x64_S80000x8x1_S80000x8x64_2_0_n_n_0_2_164 (tableOf x) (rowOf i)
  let v22 : FVec F S8x10000x8x64 .f32 := shapeCast S8x10000x8x64 v21 shapeCasts_S80000x8x64_S8x10000x8x64
  let v23 : FVec F S8x10000x1x64 .f32 := broadcastInDim S8x10000x1x64 ![0, 1, 3] bcast_S8x10000x64_S8x10000x1x64_0_1_3 x
  concatenate S8x10000x9x64 2 [⟨S8x10000x8x64, v22⟩, ⟨S8x10000x1x64, v23⟩] concatenates_S8x10000x8x64_S8x10000x1x64_S8x10000x9x64_d2

end Cert.ReferenceIdeal.RefValue

end
-- ==== Proof.RefRun.lean ====
/-
  The reference's run: its program is a straight line of host operations, so every weakly fair execution ends with the result
  at the operations' composed term of the two arguments.
-/
import proofs.«413369_j7902739825140_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's seventy operations in order, each called function's operations written out where it is called: four of the
    program's own (the two flattenings, the row counter, the divisor); the floor division's seventeen (the last its select);
    seven of the program's own (the offset's product, the sign test of the index words, the divisor again); the floor
    remainder's twenty-one (the fifth its inner select of the divisor); four of the program's own (the offset spread over the
    slots and added, the number of the appended row); the select's two (the scalar's broadcast, the select); and the program's
    last fifteen (the zero row appended, the negative row numbers moved up, the gather, the regrouping by batch, each node's
    own row joined on). -/
abbrev ops : List (HloOp τ sig (Elt F)) :=
  [ reshape main_arg0 main_v0 rfl shapeCasts_S8x10000x64_S80000x64,
    reshape main_arg1 main_v1 rfl shapeCasts_S8x10000x8_S80000x8,
    nullary main_v2 (iotaInDim S80000 32 0),
    nullary main_c (constantI S_ 32 10000#32),
    TRef.unary (.of main_c : TRef sig ⟨S_, .i32⟩) main_call0.v0 id,
    TRef.unary main_call0.v0 main_call0.v1 (broadcastInDim S80000 ![] bcast_S_S80000),
    TRef.binary (.of main_v2 : TRef sig ⟨S80000, .i32⟩) main_call0.v1 main_call0.v2 Host.divsi,
    TRef.unary (.of main_v2 : TRef sig ⟨S80000, .i32⟩) main_call0.v3 signi,
    TRef.unary main_call0.v0 main_call0.v4 signi,
    TRef.unary main_call0.v4 main_call0.v5 (broadcastInDim S80000 ![] bcast_S_S80000),
    TRef.binary main_call0.v3 main_call0.v5 main_call0.v6 (cmpi .ne),
    TRef.unary main_call0.v0 main_call0.v7 (broadcastInDim S80000 ![] bcast_S_S80000),
    TRef.binary (.of main_v2 : TRef sig ⟨S80000, .i32⟩) main_call0.v7 main_call0.v8 Host.remsi,
    TRef.nullary main_call0.c (constantI S_ 32 0#32),
    TRef.unary main_call0.c main_call0.v9 (broadcastInDim S80000 ![] bcast_S_S80000),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S80000 ![] bcast_S_S80000),
    TRef.binary main_call0.v2 main_call0.v12 main_call0.v13 subi,
    TRef.ternary main_call0.v11 main_call0.v13 main_call0.v2 main_call0.call0.v0 select,
    nullary main_c_0 (constantI S_ 32 10000#32),
    unary main_c_0 main_v4 (broadcastInDim S80000 ![] bcast_S_S80000 : (⟨S_, .i32⟩ : BufTy).Contents (Elt F) → (⟨S80000, .i32⟩ : BufTy).Contents (Elt F)),
    binary main_v3 main_v4 main_v5 (muli : (⟨S80000, .i32⟩ : BufTy).Contents (Elt F) → (⟨S80000, .i32⟩ : BufTy).Contents (Elt F) → (⟨S80000, .i32⟩ : BufTy).Contents (Elt F)),
    nullary main_c_1 (constantI S_ 32 0#32),
    unary main_c_1 main_v6 (broadcastInDim S80000x8 ![] bcast_S_S80000x8 : (⟨S_, .i32⟩ : BufTy).Contents (Elt F) → (⟨S80000x8, .i32⟩ : BufTy).Contents (Elt F)),
    binary main_v1 main_v6 main_v7 (cmpi .sge : (⟨S80000x8, .i32⟩ : BufTy).Contents (Elt F) → (⟨S80000x8, .i32⟩ : BufTy).Contents (Elt F) → (⟨S80000x8, .i1⟩ : BufTy).Contents (Elt F)),
    nullary main_c_2 (constantI S_ 32 10000#32),
    TRef.unary (.of main_c_2 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S80000x8 ![] bcast_S_S80000x8),
    TRef.binary (.of main_v1 : TRef sig ⟨S80000x8, .i32⟩) main_call1.v3 main_call1.v4 Host.remsi,
    TRef.nullary main_call1.c_1 (constantI S_ 32 0#32),
    TRef.unary main_call1.c_1 main_call1.v5 (broadcastInDim S80000x8 ![] bcast_S_S80000x8),
    TRef.binary main_call1.v4 main_call1.v5 main_call1.v6 (cmpi .ne),
    TRef.nullary main_call1.c_2 (constantI S_ 32 0#32),
    TRef.unary main_call1.c_2 main_call1.v7 (broadcastInDim S80000x8 ![] bcast_S_S80000x8),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S80000x8 ![] bcast_S_S80000x8),
    TRef.binary main_call1.v8 main_call1.v10 main_call1.v11 (cmpi .ne),
    TRef.binary main_call1.v11 main_call1.v6 main_call1.v12 andi,
    TRef.unary main_call1.call0.v0 main_call1.v13 (broadcastInDim S80000x8 ![] bcast_S_S80000x8),
    TRef.binary main_call1.v4 main_call1.v13 main_call1.v14 addi,
    TRef.ternary main_call1.v12 main_call1.v14 main_call1.v4 main_call1.v15 select,
    unary main_v5 main_v9 (broadcastInDim S80000x1 ![0] bcast_S80000_S80000x1_0 : (⟨S80000, .i32⟩ : BufTy).Contents (Elt F) → (⟨S80000x1, .i32⟩ : BufTy).Contents (Elt F)),
    unary main_v9 main_v10 (broadcastInDim S80000x8 ![0, 1] bcast_S80000x1_S80000x8_0_1 : (⟨S80000x1, .i32⟩ : BufTy).Contents (Elt F) → (⟨S80000x8, .i32⟩ : BufTy).Contents (Elt F)),
    binary main_v8 main_v10 main_v11 (addi : (⟨S80000x8, .i32⟩ : BufTy).Contents (Elt F) → (⟨S80000x8, .i32⟩ : BufTy).Contents (Elt F) → (⟨S80000x8, .i32⟩ : BufTy).Contents (Elt F)),
    nullary main_c_3 (constantI S_ 32 80000#32),
    TRef.unary (.of main_c_3 : TRef sig ⟨S_, .i32⟩) main_call2.v0 (broadcastInDim S80000x8 ![] bcast_S_S80000x8),
    TRef.ternary (.of main_v7 : TRef sig ⟨S80000x8, .i1⟩) (.of main_v11 : TRef sig ⟨S80000x8, .i32⟩) main_call2.v0 main_call2.v1 select,
    nullary main_cst (constant S_ .f32 0x00000000#32),
    unary main_cst main_v13 (broadcastInDim S1x64 ![] bcast_S_S1x64 : (⟨S_, .f32⟩ : BufTy).Contents (Elt F) → (⟨S1x64, .f32⟩ : BufTy).Contents (Elt F)),
    binary main_v0 main_v13 main_v14 ((fun a b => concatenate S80001x64 0 [⟨S80000x64, a⟩, ⟨S1x64, b⟩] concatenates_S80000x64_S1x64_S80001x64_d0) : (⟨S80000x64, .f32⟩ : BufTy).Contents (Elt F) → (⟨S1x64, .f32⟩ : BufTy).Contents (Elt F) → (⟨S80001x64, .f32⟩ : BufTy).Contents (Elt F)),
    nullary main_c_4 (constantI S_ 32 0#32),
    unary main_c_4 main_v15 (broadcastInDim S80000x8 ![] bcast_S_S80000x8 : (⟨S_, .i32⟩ : BufTy).Contents (Elt F) → (⟨S80000x8, .i32⟩ : BufTy).Contents (Elt F)),
    binary main_v12 main_v15 main_v16 (cmpi .slt : (⟨S80000x8, .i32⟩ : BufTy).Contents (Elt F) → (⟨S80000x8, .i32⟩ : BufTy).Contents (Elt F) → (⟨S80000x8, .i1⟩ : BufTy).Contents (Elt F)),
    nullary main_c_5 (constantI S_ 32 80001#32),
    unary main_c_5 main_v17 (broadcastInDim S80000x8 ![] bcast_S_S80000x8 : (⟨S_, .i32⟩ : BufTy).Contents (Elt F) → (⟨S80000x8, .i32⟩ : BufTy).Contents (Elt F)),
    binary main_v12 main_v17 main_v18 (addi : (⟨S80000x8, .i32⟩ : BufTy).Contents (Elt F) → (⟨S80000x8, .i32⟩ : BufTy).Contents (Elt F) → (⟨S80000x8, .i32⟩ : BufTy).Contents (Elt F)),
    ternary main_v16 main_v18 main_v12 main_v19 (select : (⟨S80000x8, .i1⟩ : BufTy).Contents (Elt F) → (⟨S80000x8, .i32⟩ : BufTy).Contents (Elt F) → (⟨S80000x8, .i32⟩ : BufTy).Contents (Elt F) → (⟨S80000x8, .i32⟩ : BufTy).Contents (Elt F)),
    unary main_v19 main_v20 (broadcastInDim S80000x8x1 ![0, 1] bcast_S80000x8_S80000x8x1_0_1 : (⟨S80000x8, .i32⟩ : BufTy).Contents (Elt F) → (⟨S80000x8x1, .i32⟩ : BufTy).Contents (Elt F)),
    binary main_v14 main_v20 main_v21 ((fun x i => Host.gather gather_S80001x64_S80000x8x1_S80000x8x64_2_0_n_n_0_2_164 x i) : (⟨S80001x64, .f32⟩ : BufTy).Contents (Elt F) → (⟨S80000x8x1, .i32⟩ : BufTy).Contents (Elt F) → (⟨S80000x8x64, .f32⟩ : BufTy).Contents (Elt F)),
    reshape main_v21 main_v22 rfl shapeCasts_S80000x8x64_S8x10000x8x64,
    unary main_arg0 main_v23 (broadcastInDim S8x10000x1x64 ![0, 1, 3] bcast_S8x10000x64_S8x10000x1x64_0_1_3 : (⟨S8x10000x64, .f32⟩ : BufTy).Contents (Elt F) → (⟨S8x10000x1x64, .f32⟩ : BufTy).Contents (Elt F)),
    binary main_v22 main_v23 main_v24 ((fun a b => concatenate S8x10000x9x64 2 [⟨S8x10000x8x64, a⟩, ⟨S8x10000x1x64, b⟩] concatenates_S8x10000x8x64_S8x10000x1x64_S8x10000x9x64_d2) : (⟨S8x10000x8x64, .f32⟩ : BufTy).Contents (Elt F) → (⟨S8x10000x1x64, .f32⟩ : BufTy).Contents (Elt F) → (⟨S8x10000x9x64, .f32⟩ : BufTy).Contents (Elt F)) ]

/-- The program is that straight line: a call is its function's body on the call's buffers and sequencing is associative, so
    both sides are one chain of the same steps, by computation. -/
theorem main_eq (c : Dev nD) : main (F := F) c = seq ops := rfl

/-- No buffer of the program is scoped to a region, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨reshape_bufs_sub .., reshape_bufs_sub .., nullary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., unary_bufs_sub .., unary_bufs_sub .., binary_bufs_sub .., nullary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., reshape_bufs_sub .., unary_bufs_sub .., binary_bufs_sub ..⟩

/-! ## What the buffers hold after the line

The result is a concatenation whose first operand is gathered from another concatenation. The line is cut after its first
fifty-seven operations (all that comes before the table is put together): what the four buffers read later hold there is
computed first, then the rest of the line over those contents. -/

/-- The row number each (flat row, slot) reads before a negative one is moved up: the wrapped local index plus the batch's
    offset for a non-negative index word, 80000 (the appended row) for a negative one. -/
def rowSel (i : IVec S8x10000x8 32) : IVec S80000x8 32 :=
  let v1 : IVec S80000x8 32 := shapeCast S80000x8 i shapeCasts_S8x10000x8_S80000x8
  let c1 : IVec S_ 32 := constantI S_ 32 0#32
  let v6 : IVec S80000x8 32 := broadcastInDim S80000x8 ![] bcast_S_S80000x8 c1
  let v7 : IVec S80000x8 1 := cmpi .sge v1 v6
  let v8 : IVec S80000x8 32 := remOf v1
  let v9 : IVec S80000x1 32 := broadcastInDim S80000x1 ![0] bcast_S80000_S80000x1_0 seqOffset
  let v10 : IVec S80000x8 32 := broadcastInDim S80000x8 ![0, 1] bcast_S80000x1_S80000x8_0_1 v9
  let v11 : IVec S80000x8 32 := addi v8 v10
  let c3 : IVec S_ 32 := constantI S_ 32 80000#32
  let w0 : IVec S80000x8 32 := broadcastInDim S80000x8 ![] bcast_S_S80000x8 c3
  select v7 v11 w0

/-- The contents after a line are those after its part from the `n`-th operation on, run from the contents after its first
    `n` operations. -/
theorem after_take_drop (n : Nat) :
    ∀ (l : List (HloOp τ sig (Elt F))) (V : Valuation τ sig (Elt F)), after l V = after (l.drop n) (after (l.take n) V) := by
  induction n with
  | zero => intro l V; rfl
  | succ n ih =>
    intro l V
    cases l with
    | nil => rfl
    | cons op l => exact ih l (op.result V)

/-- Two concatenations of two operands each are equal when their operands are. -/
theorem concat2_congr {α : Type} {t : Shape} {a : Fin t.rank} {s₁ s₂ : Shape} {h : Shape.Concatenates [s₁, s₂] t a}
    {x x' : s₁.Idx → α} {y y' : s₂.Idx → α} (hx : x = x') (hy : y = y') :
    concatenate t a [⟨s₁, x⟩, ⟨s₂, y⟩] h = concatenate t a [⟨s₁, x'⟩, ⟨s₂, y'⟩] h := by
  rw [hx, hy]

/-- After the first fifty-seven operations the flat table's buffer holds the node table regrouped into flat rows, -/
theorem pre_v0 (V : Valuation τ sig (Elt F)) :
    after (ops.take 57) V (main_v0 : DevRef τ sig)
      = shapeCast S80000x64 (V (main_arg0 : DevRef τ sig)) shapeCasts_S8x10000x64_S80000x64 := by
  simp only [ops, List.take_succ_cons, List.take_zero]
  after_results_simp
  rfl

/-- the appended row's buffer holds zeros, -/
theorem pre_v13 (V : Valuation τ sig (Elt F)) :
    after (ops.take 57) V (main_v13 : DevRef τ sig) = broadcastInDim S1x64 ![] bcast_S_S1x64 (constant S_ .f32 0x00000000#32) := by
  simp only [ops, List.take_succ_cons, List.take_zero]
  after_results_simp

/-- the selected row number's buffer holds `rowSel` of the index words (the casts of the typed references at these literal
    references are the identity, and the two same-type converts are the identity), -/
theorem pre_v12 (V : Valuation τ sig (Elt F)) :
    after (ops.take 57) V (main_v12 : DevRef τ sig) = rowSel (V (main_arg1 : DevRef τ sig)) := by
  simp only [ops, List.take_succ_cons, List.take_zero]
  after_results_simp
  rfl

/-- and the node table is as it was. -/
theorem pre_arg0 (V : Valuation τ sig (Elt F)) :
    after (ops.take 57) V (main_arg0 : DevRef τ sig) = V (main_arg0 : DevRef τ sig) := by
  simp only [ops, List.take_succ_cons, List.take_zero]
  after_results_simp

/-- After the whole line the result buffer holds `refTerm` of the two arguments: over the contents after the first fifty-seven
    operations the result's two operands are computed one by one — the gathered rows regrouped by batch, where the table is
    the concatenation of two of those contents and the row numbers are `rowSel` with the negative ones moved up, which is
    `rowOf`; and the nodes' own rows. -/
theorem out_eq (V : Valuation τ sig (Elt F)) :
    after ops V (main_v24 : DevRef τ sig) = refTerm (V (main_arg0 : DevRef τ sig)) (V (main_arg1 : DevRef τ sig)) := by
  rw [after_take_drop 57 ops V]
  have h0 := pre_v0 V
  have h13 := pre_v13 V
  have h12 := pre_v12 V
  have ha := pre_arg0 V
  generalize after (ops.take 57) V = W at h0 h13 h12 ha ⊢
  simp only [ops, List.drop_succ_cons, List.drop_zero, after_cons, after_nil]
  refine (binary_result ..).trans (concat2_congr ?_ ?_)
  · after_results_simp
    rw [h0, h13, h12]
    rfl
  · after_results_simp
    rw [ha]

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp

/-- On every device, from any memory with zero counters: every weakly fair execution of the reference terminates with its
    result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.RefVal.lean ====
/-
  The reference's term at the ideal values is the gather, entry by entry.

  Entry (b, n, s, f) of the reference's result, for a slot s below 8, is entry (q, s, f) of the gathered rows, q = 10000 b + n
  the node's flat row; that is column f of the row of the extended table named by the slot's row word, read signed and
  clamped into the table's 80001 rows. The row word of a non-negative index word w is its floor remainder by 10000 plus
  the batch's first flat row 10000 b, a number below 80000, so the table row is row (floor remainder) of batch b; the row
  word of a negative index word is 80000, the appended row of zeros. Slot 8 is the node's own row.
-/
import proofs.«413369_j7902739825140_3_alg».proof.Proof.RefTerm
import proofs.«413369_j7902739825140_3_alg».proof.Proof.LibRows
import proofs.«413369_j7902739825140_3_alg».proof.Proof.Words
import Idealize.ShloMosaic.Lib.ValueIdx
import Idealize.ShloMosaic.Lib.Affine
import Idealize.ShloMosaic.Lib.Pipeline.Value

noncomputable section

namespace Cert.ReferenceIdeal.RefValue

open Idealize.ShloMosaic Idealize.ShloMosaic.ValueIdx Cert.ReferenceIdeal Cert.ReferenceIdeal.Gen Cert.GatherSpec Cert.LibRows

/-- The flat row of node n of batch b. -/
abbrev flatRow (b : Fin 8) (n : Fin 10000) : Fin 80000 := ⟨10000 * b.val + n.val, by omega⟩

/-! ## The layout operations read at an index -/

/-- A slot below 8 of the two-piece result reads the first piece at the same coordinates. -/
theorem cat_slot (u : FVec Ideal S8x10000x8x64 .f32) (v : FVec Ideal S8x10000x1x64 .f32) (b : Fin 8) (n : Fin 10000)
    (s : Fin 9) (hs : s.val < 8) (f : Fin 64) :
    concatenate S8x10000x9x64 2 [⟨S8x10000x8x64, u⟩, ⟨S8x10000x1x64, v⟩]
        concatenates_S8x10000x8x64_S8x10000x1x64_S8x10000x9x64_d2 (ix4 b n s f)
      = u (ix4 b n ⟨s.val, hs⟩ f) :=
  concatenate_pair_apply_left (t := S8x10000x9x64) (s₁ := S8x10000x8x64) (s₂ := S8x10000x1x64) (2 : Fin 4) u v
    concatenates_S8x10000x8x64_S8x10000x1x64_S8x10000x9x64_d2 (ix4 b n s f) rfl (ix4 b n ⟨s.val, hs⟩ f) (fun a => by
    match a with
    | ⟨0, _⟩ => rfl
    | ⟨1, _⟩ => rfl
    | ⟨2, _⟩ => rfl
    | ⟨3, _⟩ => rfl)

/-- Slot 8 of the two-piece result reads the second piece at its one slot. -/
theorem cat_own (u : FVec Ideal S8x10000x8x64 .f32) (v : FVec Ideal S8x10000x1x64 .f32) (b : Fin 8) (n : Fin 10000)
    (s : Fin 9) (hs : ¬s.val < 8) (f : Fin 64) :
    concatenate S8x10000x9x64 2 [⟨S8x10000x8x64, u⟩, ⟨S8x10000x1x64, v⟩]
        concatenates_S8x10000x8x64_S8x10000x1x64_S8x10000x9x64_d2 (ix4 b n s f)
      = v (ix4 b n 0 f) :=
  concatenate_pair_apply_right (t := S8x10000x9x64) (s₁ := S8x10000x8x64) (s₂ := S8x10000x1x64) (2 : Fin 4) u v
    concatenates_S8x10000x8x64_S8x10000x1x64_S8x10000x9x64_d2 (ix4 b n s f) rfl rfl (ix4 b n 0 f)
    (fun a ha => by
      match a with
      | ⟨0, _⟩ => rfl
      | ⟨1, _⟩ => rfl
      | ⟨2, _⟩ => exact absurd rfl ha
      | ⟨3, _⟩ => rfl)
    (by show 0 + 8 = s.val; omega)

/-- The node array given a unit slot axis reads the node's row. -/
theorem own_apply (x : FVec Ideal S8x10000x64 .f32) (b : Fin 8) (n : Fin 10000) (f : Fin 64) :
    broadcastInDim S8x10000x1x64 ![0, 1, 3] bcast_S8x10000x64_S8x10000x1x64_0_1_3 x (ix4 b n 0 f) = x (ix3 b n f) :=
  broadcastInDim_apply _ _ x _ (ix3 b n f) (fun a => by
    match a with
    | ⟨0, _⟩ => rfl
    | ⟨1, _⟩ => rfl
    | ⟨2, _⟩ => rfl)

/-- The gathered rows regrouped by batch: entry (b, n, s, f) is entry (10000 b + n, s, f). -/
theorem regroup_apply (u : FVec Ideal S80000x8x64 .f32) (b : Fin 8) (n : Fin 10000) (s : Fin 8) (f : Fin 64) :
    shapeCast S8x10000x8x64 u shapeCasts_S80000x8x64_S8x10000x8x64 (ix4 b n s f) = u (ix3 (flatRow b n) s f) :=
  shapeCast_apply u _ _ _ (by
    rw [Shape.rowMajor_val_three, Shape.rowMajor_val_four]
    show ((10000 * b.val + n.val) * 8 + s.val) * 64 + f.val = ((b.val * 10000 + n.val) * 8 + s.val) * 64 + f.val
    omega)

/-- The flat index array: entry (10000 b + n, s) is entry (b, n, s). -/
theorem flatI_apply (i : IVec S8x10000x8 32) (b : Fin 8) (n : Fin 10000) (s : Fin 8) :
    shapeCast S80000x8 i shapeCasts_S8x10000x8_S80000x8 (ix2 (flatRow b n) s) = i (ix3 b n s) :=
  shapeCast_apply i _ _ _ (by
    rw [Shape.rowMajor_val_three, Shape.rowMajor_val_two]
    show (b.val * 10000 + n.val) * 8 + s.val = (10000 * b.val + n.val) * 8 + s.val
    omega)

/-- The flat node table: entry (10000 b + m, f) is entry (b, m, f). -/
theorem flatX_apply (x : FVec Ideal S8x10000x64 .f32) (b : Fin 8) (m : Fin 10000) (f : Fin 64) :
    shapeCast S80000x64 x shapeCasts_S8x10000x64_S80000x64 (ix2 (flatRow b m) f) = x (ix3 b m f) :=
  shapeCast_apply x _ _ _ (by
    rw [Shape.rowMajor_val_three, Shape.rowMajor_val_two]
    show (b.val * 10000 + m.val) * 64 + f.val = (10000 * b.val + m.val) * 64 + f.val
    omega)

/-- The gather reads column f of the table row named by the index word at (q, s), read signed and clamped. -/
theorem gather_apply (T : FVec Ideal S80001x64 .f32) (R : IVec S80000x8x1 32) (q : Fin 80000) (s : Fin 8) (f : Fin 64) :
    Host.gather gather_S80001x64_S80000x8x1_S80000x8x64_2_0_n_n_0_2_164 T R (ix3 q s f)
      = T (ix2 (rowClamp 80001 (by decide) (R (ix3 q s 0))) f) :=
  gather_rows3_apply (by decide) gather_S80001x64_S80000x8x1_S80000x8x64_2_0_n_n_0_2_164_wf T R q s f

/-! ## The row word -/

/-- The floor remainder of every word of the flat index array, at an entry. -/
theorem remOf_apply (v1 : IVec S80000x8 32) (j : S80000x8.Idx) : remOf v1 j = modw (v1 j) := rfl

/-- The batch offset of flat row 10000 b + n is 10000 b. -/
theorem seqOffset_apply (b : Fin 8) (n : Fin 10000) : seqOffset (ix1 (flatRow b n)) = BitVec.ofNat 32 (10000 * b.val) := by
  have h : seqOffset (ix1 (flatRow b n)) = IntOp.muli (fdivw (BitVec.ofNat 32 (flatRow b n).val)) 10000#32 := rfl
  rw [h, seqoff_word _ (flatRow b n).isLt]
  congr 1
  show (10000 * b.val + n.val) / 10000 * 10000 = 10000 * b.val
  omega

/-- The row word of a slot from its index word w and its batch's offset: the floor remainder plus the offset for a
    non-negative w, 80000 for a negative one; a negative result moved up by 80001. -/
def rowWord (w off : BitVec 32) : BitVec 32 :=
  Scalar.select (IntOp.cmpi .slt (Scalar.select (IntOp.cmpi .sge w 0#32) (IntOp.addi (modw w) off) 80000#32) 0#32)
    (IntOp.addi (Scalar.select (IntOp.cmpi .sge w 0#32) (IntOp.addi (modw w) off) 80000#32) 80001#32)
    (Scalar.select (IntOp.cmpi .sge w 0#32) (IntOp.addi (modw w) off) 80000#32)

/-- The row word the reference computes at (10000 b + n, s) is the row word of index word (b, n, s) at offset 10000 b. -/
theorem rowOf_apply (i : IVec S8x10000x8 32) (b : Fin 8) (n : Fin 10000) (s : Fin 8) :
    rowOf i (ix3 (flatRow b n) s 0) = rowWord (i (ix3 b n s)) (BitVec.ofNat 32 (10000 * b.val)) := by
  have h1 := flatI_apply i b n s
  have h2 : broadcastInDim S80000x8 ![0, 1] bcast_S80000x1_S80000x8_0_1
      (broadcastInDim S80000x1 ![0] bcast_S80000_S80000x1_0 seqOffset) (ix2 (flatRow b n) s) = BitVec.ofNat 32 (10000 * b.val) := by
    refine (broadcastInDim_apply _ _ _ (ix2 (flatRow b n) s) (ix2 (flatRow b n) 0) (fun a => by
      match a with
      | ⟨0, _⟩ => rfl
      | ⟨1, _⟩ => rfl)).trans ?_
    refine (broadcastInDim_apply _ _ _ (ix2 (flatRow b n) 0) (ix1 (flatRow b n)) (fun a => by
      match a with
      | ⟨0, _⟩ => rfl)).trans ?_
    exact seqOffset_apply b n
  unfold rowOf
  refine Eq.trans (broadcastInDim_apply (s := S80000x8) (t := S80000x8x1) _ bcast_S80000x8_S80000x8x1_0_1 _
    (ix3 (flatRow b n) s 0) (ix2 (flatRow b n) s) (fun a => by
      match a with
      | ⟨0, _⟩ => rfl
      | ⟨1, _⟩ => rfl)) ?_
  show rowWord (shapeCast S80000x8 i shapeCasts_S8x10000x8_S80000x8 (ix2 (flatRow b n) s))
    (broadcastInDim S80000x8 ![0, 1] bcast_S80000x1_S80000x8_0_1
      (broadcastInDim S80000x1 ![0] bcast_S80000_S80000x1_0 seqOffset) (ix2 (flatRow b n) s)) = _
  rw [h1, h2]

/-- For a non-negative index word and an offset of at most 70000 the row word is the floor remainder plus the offset. -/
theorem rowWord_nonneg (w : BitVec 32) (k : Nat) (hk : k ≤ 70000) (h : IntOp.cmpi .sge w 0#32 = 1#1) :
    rowWord w (BitVec.ofNat 32 k) = BitVec.ofNat 32 ((modw w).toNat + k) := by
  have hm := modw_lt w h
  have e : IntOp.addi (modw w) (BitVec.ofNat 32 k) = BitVec.ofNat 32 ((modw w).toNat + k) := by
    apply BitVec.eq_of_toNat_eq
    show (modw w + BitVec.ofNat 32 k).toNat = _
    rw [BitVec.toNat_add, BitVec.toNat_ofNat, BitVec.toNat_ofNat]
    omega
  have hlt : ¬IntOp.cmpi .slt (BitVec.ofNat 32 ((modw w).toNat + k)) 0#32 = 1#1 := by
    intro hc
    have h0 := IntOp.cmpi_slt.mp hc
    rw [BitVec.toInt_eq_toNat_of_lt (by rw [BitVec.toNat_ofNat]; omega), BitVec.toNat_ofNat,
      show (0#32 : BitVec 32).toInt = 0 from by decide] at h0
    omega
  unfold rowWord
  rw [h, select_one, e]
  exact if_neg hlt

/-- For a negative index word the row word is 80000. -/
theorem rowWord_neg (w off : BitVec 32) (h : ¬IntOp.cmpi .sge w 0#32 = 1#1) : rowWord w off = 80000#32 := by
  unfold rowWord
  rw [eq_zero_of_ne_one h, select_zero]
  decide

/-- A word below 80000 read signed and clamped into 80001 rows is itself. -/
theorem clamp_lt (r : Nat) (hr : r < 80000) : (rowClamp 80001 (by decide) (BitVec.ofNat 32 r)).val = r := by
  show min (BitVec.ofNat 32 r).toInt.toNat (80001 - 1) = r
  rw [BitVec.toInt_eq_toNat_of_lt (by rw [BitVec.toNat_ofNat]; omega), BitVec.toNat_ofNat]
  omega

/-! ## The table -/

/-- Row 10000 b + m of the extended table is row m of batch b. -/
theorem table_row (x : FVec Ideal S8x10000x64 .f32) (b : Fin 8) (m : Fin 10000) (f : Fin 64) (r : Fin 80001)
    (hr : r.val = 10000 * b.val + m.val) : tableOf x (ix2 r f) = x (ix3 b m f) := by
  refine (concatenate_pair_apply_left (t := S80001x64) (s₁ := S80000x64) (s₂ := S1x64) (0 : Fin 2) _ _
    concatenates_S80000x64_S1x64_S80001x64_d0 (ix2 r f) rfl (ix2 (flatRow b m) f) (fun a => by
      match a with
      | ⟨0, _⟩ => exact hr.symm
      | ⟨1, _⟩ => rfl)).trans ?_
  exact flatX_apply x b m f

/-- Row 80000 of the extended table is zero. -/
theorem table_last (x : FVec Ideal S8x10000x64 .f32) (f : Fin 64) (r : Fin 80001) (hr : r.val = 80000) :
    tableOf x (ix2 r f) = 0 := by
  refine (concatenate_pair_apply_right (t := S80001x64) (s₁ := S80000x64) (s₂ := S1x64) (0 : Fin 2) _ _
    concatenates_S80000x64_S1x64_S80001x64_d0 (ix2 r f) rfl rfl (ix2 0 f)
    (fun a ha => by
      match a with
      | ⟨0, _⟩ => exact absurd rfl ha
      | ⟨1, _⟩ => rfl)
    (by show 0 + 80000 = r.val; omega)).trans ?_
  exact Ideal.ofBits_zero_f32

/-! ## A slot's value -/

/-- The table row a slot's row word names holds the row the slot's local index selects, or zero. -/
theorem slot_value (x : FVec Ideal S8x10000x64 .f32) (b : Fin 8) (w : BitVec 32) (f : Fin 64) :
    tableOf x (ix2 (rowClamp 80001 (by decide) (rowWord w (BitVec.ofNat 32 (10000 * b.val)))) f) = sel x b (lidx w) f := by
  by_cases h : IntOp.cmpi .sge w 0#32 = 1#1
  · have hm := modw_lt w h
    rw [lidx_of_nonneg w h, rowWord_nonneg w _ (by omega) h]
    unfold sel
    rw [dif_pos hm]
    exact table_row x b ⟨(modw w).toNat, hm⟩ f _ (by
      rw [clamp_lt _ (by omega)]
      show _ = 10000 * b.val + (modw w).toNat
      omega)
  · rw [lidx_of_neg w h, rowWord_neg w _ h]
    unfold sel
    rw [dif_neg (by decide)]
    exact table_last x f _ (by decide)

/-- The reference's result at entry (b, n, s, f). -/
theorem refTerm_apply (x : FVec Ideal S8x10000x64 .f32) (i : IVec S8x10000x8 32) (b : Fin 8) (n : Fin 10000) (s : Fin 9)
    (f : Fin 64) : refTerm (F := Ideal) x i (ix4 b n s f) = G x i (ix4 b n s f) := by
  show concatenate S8x10000x9x64 2 [⟨S8x10000x8x64, _⟩, ⟨S8x10000x1x64, _⟩]
      concatenates_S8x10000x8x64_S8x10000x1x64_S8x10000x9x64_d2 (ix4 b n s f)
    = if h : s.val < 8 then sel x b (lidx (i (ix3 b n ⟨s.val, h⟩))) f else x (ix3 b n f)
  by_cases hs : s.val < 8
  · rw [dif_pos hs, cat_slot _ _ b n s hs f, regroup_apply, gather_apply, rowOf_apply]
    exact slot_value x b (i (ix3 b n ⟨s.val, hs⟩)) f
  · rw [dif_neg hs, cat_own _ _ b n s hs f, own_apply]

/-- The reference's result is the gather of its two arguments. -/
theorem refTerm_eq (x : FVec Ideal S8x10000x64 .f32) (i : IVec S8x10000x8 32) :
    refTerm (F := Ideal) x i = Cert.GatherSpec.G x i := by
  funext j
  rw [eq_ix4 j]
  exact refTerm_apply x i (j 0) (j 1) (j 2) (j 3)

end Cert.ReferenceIdeal.RefValue

end
-- ==== Proof.Finite.lean ====
/-
  From the precondition to "every feature is a real number": the precondition is the conjunction over all entries of
  |x| < +inf, and an extended real whose absolute value is below +inf is a real.
-/
import proofs.«413369_j7902739825140_3_alg».proof.Defs
import proofs.«413369_j7902739825140_3_alg».proof.Proof.Gen.Pre_finite_inputs
import Idealize.ShloMosaic.Lib.ReduceAll
import Idealize.ShloMosaic.Lib.ValueIdx

noncomputable section

namespace Cert.Proof.Finite

open Idealize.ShloMosaic Idealize.SL.Sem

/-- The word of +inf denotes the top of the extended reals. -/
theorem ofBits_inf : Ideal.ofBits .f32 0x7F800000#32 = ⊤ := by simp [Ideal.ofBits, Ideal.ieee]

/-- An extended real whose absolute value max x (-x) is below the top is a real number. -/
theorem real_of_abs_lt_top (x : EReal) (h : max x (-x) < ⊤) : ∃ r : ℝ, x = (r : EReal) := by
  have h1 : x ≠ ⊤ := by
    rintro rfl
    simp at h
  have h2 : x ≠ ⊥ := by
    rintro rfl
    simp at h
  exact ⟨x.toReal, (EReal.coe_toReal h1 h2).symm⟩

/-- Under the precondition every entry of the feature array is a real number. -/
theorem reals_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (j : Cert.KernelIdeal.S8x10000x64.Idx) :
    ∃ r : ℝ, m ((c.tc : Thread Cert.KernelIdeal.nD Cert.KernelIdeal.τ).loc Cert.KernelIdeal.main_arg0) j = (r : EReal) := by
  have h0 := congrFun (h c) ValueIdx.ix0
  dsimp only [Cert.Pre_finite_inputs.fn] at h0
  haveI : Subsingleton Cert.Pre_finite_inputs.S_.Idx := ⟨fun a b => funext fun d => d.elim0⟩
  have hj := Host.reduce_andi_all _ _ _ _ _ h0 j
  let x : EReal := m ((c.tc : Thread Cert.KernelIdeal.nD Cert.KernelIdeal.τ).loc Cert.KernelIdeal.main_arg0) j
  have hc : Ideal.cmp .olt (max x (-x)) (Ideal.ofBits .f32 0x7F800000#32) = 1#1 := hj
  show ∃ r : ℝ, x = (r : EReal)
  apply real_of_abs_lt_top
  rw [ofBits_inf] at hc
  change BitVec.ofBool (decide (max x (-x) < ⊤)) = 1#1 at hc
  by_contra hn
  rw [decide_eq_false hn] at hc
  exact absurd hc (by decide)

end Cert.Proof.Finite

end
-- ==== Proof.lean ====
/-
  The five claims of the gather kernel against its reference.

  Both programs compute, for each node and each of its eight neighbour slots, the feature row the slot's index names in the
  node's own batch (a zero row for a slot that names none), and the node's own row as a ninth slot. The kernel selects a row
  by multiplying a one-hot row into the table, chunk by chunk, the table split into a rounded half and a residue half; over
  the extended reals a change of float format is the identity, so the rounded half is the features themselves and the
  residue half is a real less itself, zero (this is where the precondition, every feature a real number, is used). The
  reference appends a zero row to the flat table and gathers rows by number. Both equal the function `G` of the two
  arguments.
-/
import proofs.«413369_j7902739825140_3_alg».proof.Defs
import proofs.«413369_j7902739825140_3_alg».proof.Proof.Gen.Kernel
import proofs.«413369_j7902739825140_3_alg».proof.Proof.Gen.Kernel.Frame
import proofs.«413369_j7902739825140_3_alg».proof.Proof.Gen.KernelIdeal
import proofs.«413369_j7902739825140_3_alg».proof.Proof.Gen.KernelIdeal.Frame
import proofs.«413369_j7902739825140_3_alg».proof.Proof.Gen.ReferenceIdeal
import proofs.«413369_j7902739825140_3_alg».proof.Proof.Gen.Pre_finite_inputs
import proofs.«413369_j7902739825140_3_alg».proof.Proof.KFinal
import proofs.«413369_j7902739825140_3_alg».proof.Proof.RefRun
import proofs.«413369_j7902739825140_3_alg».proof.Proof.RefVal
import proofs.«413369_j7902739825140_3_alg».proof.Proof.Finite
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel and its idealization run and keep their arguments: the generated frames
  fun m ρ _ => Cert.Kernel.Gen.frame m ρ,
  fun m ρ _ => Cert.KernelIdeal.Gen.frame m ρ,
  -- the reference's frame is its run with the result dropped
  fun m ρ _ => (θ_run Cert.ReferenceIdeal.defs _ _).mono (fun _ h c => (h c).2) (Cert.ReferenceIdeal.RefValue.run (F := Ideal) m ρ),
  trivial,
  -- both runs end at the gather of arguments that agree
  fun m ρ m' ρ' hpre hagree =>
    ⟨fun c => Cert.GatherSpec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.GatherK.run m ρ (Cert.Proof.Finite.reals_of_pre m hpre),
      (θ_run Cert.ReferenceIdeal.defs _ _).mono
        (fun _ h c => ⟨by rw [(h c).1, Cert.ReferenceIdeal.RefValue.refTerm_eq, (hagree c).1, (hagree c).2], (h c).2⟩)
        (Cert.ReferenceIdeal.RefValue.run (F := Ideal) m' ρ')⟩⟩

end Cert.Proof

end
